-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000 : Shape := ⟨1, ![500000]⟩
abbrev S16384 : Shape := ⟨1, ![16384]⟩
abbrev S256x128 : Shape := ⟨2, ![256, 128]⟩
abbrev S256 : Shape := ⟨1, ![256]⟩
abbrev S249x256 : Shape := ⟨2, ![249, 256]⟩
abbrev S256x256 : Shape := ⟨2, ![256, 256]⟩
abbrev S256x1024 : Shape := ⟨2, ![256, 1024]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S249x256 : S_.BroadcastsInDim S249x256 (![] : Fin 0 → Fin S249x256.rank)
  reducesTo_S249x256_S_d0_1 : S249x256.ReducesTo [0, 1] S_
  bcast_S_S256x256 : S_.BroadcastsInDim S256x256 (![] : Fin 0 → Fin S256x256.rank)
  reducesTo_S256x256_S_d0_1 : S256x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg18 : FVec F S256x1024 .f32) (main_arg19 : FVec F S256 .f32) (main_arg20 : FVec F S1x256 .f32) (main_arg21 : FVec F S1 .f32) (main_v63 : IVec S_ 1) (main_v67 : IVec S_ 1) : IVec S_ 1 :=
  let main_v68 : IVec S_ 1 := andi main_v63 main_v67
  let main_v69 : FVec F S256x1024 .f32 := Host.absf main_arg18
  let main_cst_26 : FVec F S_ .f32 := constant S_ .f32 0x7F800000#32
  let main_v70 : FVec F S256x1024 .f32 := broadcastInDim S256x1024 ![] bcast_S_S256x1024 main_cst_26
  let main_v71 : IVec S256x1024 1 := cmpf .olt main_v69 main_v70
  let main_c_27 : IVec S_ 1 := constantI S_ 1 1#1
  let main_v72 : IVec S_ 1 := (fun x v => Host.reduce IntOp.andi x v reducesTo_S256x1024_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg20
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_v83 main_v84 main_cst_32

def fn_part3 {F : FTy → Type} [FloatOps F] (main_arg15 : FVec F S256x256 .f32) (main_arg16 : FVec F S256x256 .f32) (main_arg17 : FVec F S256 .f32) (main_arg18 : FVec F S256x1024 .f32) (main_arg19 : FVec F S256 .f32) (main_arg20 : FVec F S1x256 .f32) (main_arg21 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256x256 .f32 := Host.absf main_arg16
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_arg21 main_v63 main_v67

def fn_part2 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256x256 .f32) (main_arg17 : FVec F S256 .f32) (main_arg18 : FVec F S256x1024 .f32) (main_arg19 : FVec F S256 .f32) (main_arg20 : FVec F S1x256 .f32) (main_arg21 : FVec F S1 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg13
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg14
  let main_cst_18 : FVec F S_ .f32 := constant S_ .f32 0x7F800000#32
  let main_v50 : FVec F S256 .f32 := broadcastInDim S256 ![] bcast_S_S256 main_cst_18
  fn_part3 (F := F) main_arg15 main_arg16 main_arg17 main_arg18 main_arg19 main_arg20 main_arg21 main_v48 main_v49 main_v50

def fn_part1 {F : FTy → Type} [FloatOps F] (main_arg8 : FVec F S256x256 .f32) (main_arg9 : FVec F S256 .f32) (main_arg10 : FVec F S256x256 .f32) (main_arg11 : FVec F S256x256 .f32) (main_arg12 : FVec F S256 .f32) (main_arg13 : FVec F S256x256 .f32) (main_arg14 : FVec F S256 .f32) (main_arg15 : FVec F S256x256 .f32) (main_arg16 : FVec F S256x256 .f32) (main_arg17 : FVec F S256 .f32) (main_arg18 : FVec F S256x1024 .f32) (main_arg19 : FVec F S256 .f32) (main_arg20 : FVec F S1x256 .f32) (main_arg21 : FVec F S1 .f32) (main_v13 : IVec S_ 1) (main_v16 : IVec S249x256 1) : IVec S_ 1 :=
  let main_c_5 : IVec S_ 1 := constantI S_ 1 1#1
  let main_v17 : IVec S_ 1 := (fun x v => Host.reduce IntOp.andi x v reducesTo_S249x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x500000 32) (main_arg2 : IVec S500000 32) (main_arg3 : IVec S16384 32) (main_arg4 : IVec S16384 32) (main_arg5 : FVec F S256x128 .f32) (main_arg6 : FVec F S256 .f32) (main_arg7 : FVec F S249x256 .f32) (main_arg8 : FVec F S256x256 .f32) (main_arg9 : FVec F S256 .f32) (main_arg10 : FVec F S256x256 .f32) (main_arg11 : FVec F S256x256 .f32) (main_arg12 : FVec F S256 .f32) (main_arg13 : FVec F S256x256 .f32) (main_arg14 : FVec F S256 .f32) (main_arg15 : FVec F S256x256 .f32) (main_arg16 : FVec F S256x256 .f32) (main_arg17 : FVec F S256 .f32) (main_arg18 : FVec F S256x1024 .f32) (main_arg19 : FVec F S256 .f32) (main_arg20 : FVec F S1x256 .f32) (main_arg21 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg5
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S249x256 .f32 := Host.absf main_arg7
  let main_cst_4 : FVec F S_ .f32 := constant S_ .f32 0x7F800000#32
  let main_v15 : FVec F S249x256 .f32 := broadcastInDim S249x256 ![] bcast_S_S249x256 main_cst_4
  let main_v16 : IVec S249x256 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x500000 : Shape := ⟨2, ![2, 500000]⟩
abbrev S500000 : Shape := ⟨1, ![500000]⟩
abbrev S16384 : Shape := ⟨1, ![16384]⟩
abbrev S256x128 : Shape := ⟨2, ![256, 128]⟩
abbrev S256 : Shape := ⟨1, ![256]⟩
abbrev S249x256 : Shape := ⟨2, ![249, 256]⟩
abbrev S256x256 : Shape := ⟨2, ![256, 256]⟩
abbrev S256x1024 : Shape := ⟨2, ![256, 1024]⟩
abbrev S1x256 : Shape := ⟨2, ![1, 256]⟩
abbrev S1 : Shape := ⟨1, ![1]⟩
abbrev S1x500000 : Shape := ⟨2, ![1, 500000]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S128x256 : Shape := ⟨2, ![128, 256]⟩
abbrev S100000x256 : Shape := ⟨2, ![100000, 256]⟩
abbrev S2000x128 : Shape := ⟨2, ![2000, 128]⟩
abbrev S2000x256 : Shape := ⟨2, ![2000, 256]⟩
abbrev S500000x256 : Shape := ⟨2, ![500000, 256]⟩
abbrev S2000x1 : Shape := ⟨2, ![2000, 1]⟩
abbrev S16384x1 : Shape := ⟨2, ![16384, 1]⟩
abbrev S16384x256 : Shape := ⟨2, ![16384, 256]⟩
abbrev S1024x256 : Shape := ⟨2, ![1024, 256]⟩
abbrev S1x128 : Shape := ⟨2, ![1, 128]⟩
abbrev S2 : Shape := ⟨1, ![2]⟩
abbrev S16384x128 : Shape := ⟨2, ![16384, 128]⟩
abbrev S1024x128 : Shape := ⟨2, ![1024, 128]⟩
abbrev S1024x1024 : Shape := ⟨2, ![1024, 1024]⟩

abbrev nBuf : Space → Nat
  | .hbm => 131
  | .vmem => 38
  | .smem => 0
  | _ => 0

abbrev hbmTy0_0 (i : Nat) : BufTy := match i % 128 with
  | 0 => ⟨S100000x128, .f32⟩
  | 1 => ⟨S2x500000, .i32⟩
  | 2 => ⟨S500000, .i32⟩
  | 3 => ⟨S16384, .i32⟩
  | 4 => ⟨S16384, .i32⟩
  | 5 => ⟨S256x128, .f32⟩
  | 6 => ⟨S256, .f32⟩
  | 7 => ⟨S249x256, .f32⟩
  | 8 => ⟨S256x256, .f32⟩
  | 9 => ⟨S256, .f32⟩
  | 10 => ⟨S256x256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256x256, .f32⟩
  | 17 => ⟨S256, .f32⟩
  | 18 => ⟨S256x1024, .f32⟩
  | 19 => ⟨S256, .f32⟩
  | 20 => ⟨S1x256, .f32⟩
  | 21 => ⟨S1, .f32⟩
  | 22 => ⟨S1x500000, .i32⟩
  | 23 => ⟨S500000, .i32⟩
  | 24 => ⟨S1x500000, .i32⟩
  | 25 => ⟨S500000, .i32⟩
  | 26 => ⟨S_, .f32⟩
  | 27 => ⟨S500000, .f32⟩
  | 28 => ⟨S_, .f32⟩
  | 29 => ⟨S100000, .f32⟩
  | 30 => ⟨S500000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S128x256, .f32⟩
  | 40 => ⟨S128x256, .bf16⟩
  | 41 => ⟨S1x256, .f32⟩
  | 42 => ⟨S100000x256, .bf16⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x256, .bf16⟩
  | 52 => ⟨S500000x256, .f32⟩
  | 53 => ⟨S_, .f32⟩
  | 54 => ⟨S100000x256, .f32⟩
  | 55 => ⟨S500000x1, .i32⟩
  | 56 => ⟨S100000x256, .f32⟩
  | 57 => ⟨S256x256, .f32⟩
  | 58 => ⟨S256x256, .f32⟩
  | 59 => ⟨S256x256, .bf16⟩
  | 60 => ⟨S256x256, .bf16⟩
  | 61 => ⟨S1x256, .f32⟩
  | 62 => ⟨S100000x256, .bf16⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x256, .bf16⟩
  | 72 => ⟨S500000x256, .f32⟩
  | 73 => ⟨S_, .f32⟩
  | 74 => ⟨S100000x256, .f32⟩
  | 75 => ⟨S500000x1, .i32⟩
  | 76 => ⟨S100000x256, .f32⟩
  | 77 => ⟨S256x256, .f32⟩
  | 78 => ⟨S256x256, .f32⟩
  | 79 => ⟨S256x256, .bf16⟩
  | 80 => ⟨S256x256, .bf16⟩
  | 81 => ⟨S1x256, .f32⟩
  | 82 => ⟨S100000x256, .bf16⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S16384x256, .bf16⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S16384x256, .bf16⟩
  | 101 => ⟨S1024x256, .f32⟩
  | 102 => ⟨S1024x256, .bf16⟩
  | 103 => ⟨S1x256, .f32⟩
  | 104 => ⟨S_, .f32⟩
  | 105 => ⟨S256x128, .f32⟩
  | 106 => ⟨S256, .f32⟩
  | 107 => ⟨S_, .i32⟩
  | 108 => ⟨S1, .i32⟩
  | 109 => ⟨S256x128, .f32⟩
  | 110 => ⟨S256x128, .bf16⟩
  | 111 => ⟨S_, .f32⟩
  | 112 => ⟨S1x128, .f32⟩
  | 113 => ⟨S_, .f32⟩
  | 114 => ⟨S_, .i32⟩
  | 115 => ⟨S1, .i32⟩
  | 116 => ⟨S_, .i32⟩
  | 117 => ⟨S1, .i32⟩
  | 118 => ⟨S2, .i32⟩
  | 119 => ⟨S1x128, .f32⟩
  | 120 => ⟨S16384x128, .f32⟩
  | 121 => ⟨S16384x1, .f32⟩
  | 122 => ⟨S16384, .f32⟩
  | 123 => ⟨S16384, .f32⟩
  | 124 => ⟨S16384, .f32⟩
  | 125 => ⟨S_, .f32⟩
  | 126 => ⟨S16384, .f32⟩
  | 127 => ⟨S16384, .f32⟩
  | _ => ⟨S100000x128, .f32⟩

abbrev hbmTy0_1 (i : Nat) : BufTy := match i % 128 with
  | 0 => ⟨S_, .f32⟩
  | 1 => ⟨S16384, .f32⟩
  | 2 => ⟨S16384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S2000x256, .bf16⟩
  | .local _ .vmem, ⟨5, _⟩ => ⟨S2000x256, .bf16⟩
  | .local _ .vmem, ⟨6, _⟩ => ⟨S2000x256, .f32⟩
  | .local _ .vmem, ⟨7, _⟩ => ⟨S2000x256, .f32⟩
  | .local _ .vmem, ⟨8, _⟩ => ⟨S2000x256, .bf16⟩
  | .local _ .vmem, ⟨9, _⟩ => ⟨S2000x256, .bf16⟩
  | .local _ .vmem, ⟨10, _⟩ => ⟨S2000x1, .f32⟩
  | .local _ .vmem, ⟨11, _⟩ => ⟨S2000x1, .f32⟩
  | .local _ .vmem, ⟨12, _⟩ => ⟨S256x256, .bf16⟩
  | .local _ .vmem, ⟨13, _⟩ => ⟨S256x256, .bf16⟩
  | .local _ .vmem, ⟨14, _⟩ => ⟨S1x256, .f32⟩
  | .local _ .vmem, ⟨15, _⟩ => ⟨S2000x256, .bf16⟩
  | .local _ .vmem, ⟨16, _⟩ => ⟨S2000x256, .bf16⟩
  | .local _ .vmem, ⟨17, _⟩ => ⟨S2000x256, .f32⟩
  | .local _ .vmem, ⟨18, _⟩ => ⟨S2000x256, .f32⟩
  | .local _ .vmem, ⟨19, _⟩ => ⟨S2000x256, .bf16⟩
  | .local _ .vmem, ⟨20, _⟩ => ⟨S2000x256, .bf16⟩
  | .local _ .vmem, ⟨21, _⟩ => ⟨S2000x1, .f32⟩
  | .local _ .vmem, ⟨22, _⟩ => ⟨S2000x1, .f32⟩
  | .local _ .vmem, ⟨23, _⟩ => ⟨S256x256, .bf16⟩
  | .local _ .vmem, ⟨24, _⟩ => ⟨S256x256, .bf16⟩
  | .local _ .vmem, ⟨25, _⟩ => ⟨S1x256, .f32⟩
  | .local _ .vmem, ⟨26, _⟩ => ⟨S2000x256, .bf16⟩
  | .local _ .vmem, ⟨27, _⟩ => ⟨S2000x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1x256, .f32⟩
  | .local _ .vmem, ⟨34, _⟩ => ⟨S256x128, .bf16⟩
  | .local _ .vmem, ⟨35, _⟩ => ⟨S1x128, .f32⟩
  | .local _ .vmem, ⟨36, _⟩ => ⟨S1024x128, .f32⟩
  | .local _ .vmem, ⟨37, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_5 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_8 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_10 : Ref sig .tc := ⟨.hbm, 92, rfl⟩
abbrev main_v58 : Ref sig .tc := ⟨.hbm, 93, rfl⟩
abbrev main_v59 : Ref sig .tc := ⟨.hbm, 94, rfl⟩
abbrev main_c_11 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_c_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_c_15 : Ref sig .tc := ⟨.hbm, 114, rfl⟩
abbrev main_v75 : Ref sig .tc := ⟨.hbm, 115, rfl⟩
abbrev main_c_16 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_17 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S100000_S100000x1 : S100000.ShapeCasts S100000x1
  transposes_S256x128_S128x256_1_0 : S256x128.Transposes [1, 0] S128x256
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S100000x256 : S_.BroadcastsInDim S100000x256 (![] : Fin 0 → Fin S100000x256.rank)
  transposes_S256x256_S256x256_1_0 : S256x256.Transposes [1, 0] S256x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S16384 : S_.BroadcastsInDim S16384 (![] : Fin 0 → Fin S16384.rank)
  bcast_S16384_S16384x1_0 : S16384.BroadcastsInDim S16384x1 (![0] : Fin 1 → Fin S16384x1.rank)
  transposes_S256x1024_S1024x256_1_0 : S256x1024.Transposes [1, 0] S1024x256
  bcast_S_S256x128 : S_.BroadcastsInDim S256x128 (![] : Fin 0 → Fin S256x128.rank)
  shapeCasts_S1x256_S256 : S1x256.ShapeCasts S256
  bcast_S_S1 : S_.BroadcastsInDim S1 (![] : Fin 0 → Fin S1.rank)
  bcast_S_S1x128 : S_.BroadcastsInDim S1x128 (![] : Fin 0 → Fin S1x128.rank)
  shapeCasts_S1_S_ : S1.ShapeCasts S_
  concatenates_S1_S1_S2_d0 : Shape.Concatenates [S1, S1] S2 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  concatenates_S1024x256_S1024x256_S1024x256_S1024x256_S1024x1024_d1 : Shape.Concatenates [S1024x256, S1024x256, S1024x256, S1024x256] S1024x1024 1
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S16384x128_S16384x1_0_0 : S16384x128.Slices ![0, 0] S16384x1
  shapeCasts_S16384x1_S16384 : S16384x1.ShapeCasts S16384
  scatter_S100000_S500000x1_S500000_n_0_0_1_wf : ScatterDims.WF S100000 S500000x1 S500000 [] [0] [0] 1
  dot_S2000x128_S128x256_S2000x256_1_0_0_1_n_n_wf : DotDims.WF S2000x128 S128x256 S2000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S2000x256_S256x256_S2000x256_1_0_0_1_n_n_wf : DotDims.WF S2000x256 S256x256 S2000x256 [1] [0] [0] [1] [] []
  gather_S100000x256_S16384x1_S16384x256_1_0_n_n_0_1_1256_wf : GatherDims.WF S100000x256 S16384x1 S16384x256 [1] [0] [] [0] [] 1 ![1, 256]
  scatter_S256x128_S1_S256_0_1_1_0_wf : ScatterDims.WF S256x128 S1 S256 [0] [1] [1] 0
  scatter_S1x128_S2_S__n_01_01_0_wf : ScatterDims.WF S1x128 S2 S_ [] [0, 1] [0, 1] 0
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .bf16 = 32 ∨ (Rect.block (s := S100000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .bf16 = 32 ∨ (Rect.block (s := S100000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .bf16 = 32 ∨ (Rect.block (s := S100000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .bf16 = 32 ∨ (Rect.block (s := S100000x256) S2000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .bf16 = 32 ∨ (Rect.block (s := S100000x256) S2000x256.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S16384x256.size a
  hwx3_0 : ∀ i : grid3.Coords, EltTy.bits .bf16 = 32 ∨ (Rect.block (s := S16384x256) S1024x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S16384x256.size a
  hwx3_1 : ∀ i : grid3.Coords, EltTy.bits .bf16 = 32 ∨ (Rect.block (s := S16384x256) S1024x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S1024x256.size a
  hwx3_2 : ∀ i : grid3.Coords, EltTy.bits .bf16 = 32 ∨ (Rect.block (s := S1024x256) S1024x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .bf16 = 32 ∨ (Rect.block (s := S256x128) S256x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S16384x128.size a
  hwx3_6 : ∀ i : grid3.Coords, EltTy.bits .f32 = 32 ∨ (Rect.block (s := S16384x128) S1024x128.size (cc3_transform_6 i) (hinb3_6 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def scatter_S256x128_S1_S256_0_1_1_0 : ScatterDims S256x128 S1 S256 where
  updateWindowDims := [0]
  insertedWindowDims := [1]
  scatterDimsToOperandDims := [1]
  indexVectorDim := 0
  wf := scatter_S256x128_S1_S256_0_1_1_0_wf
def scatter_S1x128_S2_S__n_01_01_0 : ScatterDims S1x128 S2 S_ where
  updateWindowDims := []
  insertedWindowDims := [0, 1]
  scatterDimsToOperandDims := [0, 1]
  indexVectorDim := 0
  wf := scatter_S1x128_S2_S__n_01_01_0_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v57) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1024x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1024x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000 : Shape := ⟨1, ![500000]⟩
abbrev S16384 : Shape := ⟨1, ![16384]⟩
abbrev S256x128 : Shape := ⟨2, ![256, 128]⟩
abbrev S256 : Shape := ⟨1, ![256]⟩
abbrev S249x256 : Shape := ⟨2, ![249, 256]⟩
abbrev S256x256 : Shape := ⟨2, ![256, 256]⟩
abbrev S256x1024 : Shape := ⟨2, ![256, 1024]⟩
abbrev S1x256 : Shape := ⟨2, ![1, 256]⟩
abbrev S1 : Shape := ⟨1, ![1]⟩
abbrev S1x500000 : Shape := ⟨2, ![1, 500000]⟩
abbrev S_ : Shape := ⟨0, ![]⟩
abbrev S100000 : Shape := ⟨1, ![100000]⟩
abbrev S500000x1 : Shape := ⟨2, ![500000, 1]⟩
abbrev S128x256 : Shape := ⟨2, ![128, 256]⟩
abbrev S100000x256 : Shape := ⟨2, ![100000, 256]⟩
abbrev S500000x256 : Shape := ⟨2, ![500000, 256]⟩
abbrev S100000x1 : Shape := ⟨2, ![100000, 1]⟩
abbrev S16384x1 : Shape := ⟨2, ![16384, 1]⟩
abbrev S16384x256 : Shape := ⟨2, ![16384, 256]⟩
abbrev S16384x1024 : Shape := ⟨2, ![16384, 1024]⟩
abbrev S1024x256 : Shape := ⟨2, ![1024, 256]⟩
abbrev S256x1 : Shape := ⟨2, ![256, 1]⟩
abbrev S1x1 : Shape := ⟨2, ![1, 1]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x500000, .i32⟩
  | 2 => ⟨S500000, .i32⟩
  | 3 => ⟨S16384, .i32⟩
  | 4 => ⟨S16384, .i32⟩
  | 5 => ⟨S256x128, .f32⟩
  | 6 => ⟨S256, .f32⟩
  | 7 => ⟨S249x256, .f32⟩
  | 8 => ⟨S256x256, .f32⟩
  | 9 => ⟨S256, .f32⟩
  | 10 => ⟨S256x256, .f32⟩
  | 11 => ⟨S256x256, .f32⟩
  | 12 => ⟨S256, .f32⟩
  | 13 => ⟨S256x256, .f32⟩
  | 14 => ⟨S256, .f32⟩
  | 15 => ⟨S256x256, .f32⟩
  | 16 => ⟨S256x256, .f32⟩
  | 17 => ⟨S256, .f32⟩
  | 18 => ⟨S256x1024, .f32⟩
  | 19 => ⟨S256, .f32⟩
  | 20 => ⟨S1x256, .f32⟩
  | 21 => ⟨S1, .f32⟩
  | 22 => ⟨S1x500000, .i32⟩
  | 23 => ⟨S500000, .i32⟩
  | 24 => ⟨S1x500000, .i32⟩
  | 25 => ⟨S500000, .i32⟩
  | 26 => ⟨S_, .f32⟩
  | 27 => ⟨S500000, .f32⟩
  | 28 => ⟨S_, .f32⟩
  | 29 => ⟨S100000, .f32⟩
  | 30 => ⟨S500000x1, .i32⟩
  | 31 => ⟨S100000, .f32⟩
  | 32 => ⟨S128x256, .f32⟩
  | 33 => ⟨S100000x256, .f32⟩
  | 34 => ⟨S1x256, .f32⟩
  | 35 => ⟨S100000x256, .f32⟩
  | 36 => ⟨S100000x256, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000x256, .f32⟩
  | 46 => ⟨S256x256, .f32⟩
  | 47 => ⟨S500000x256, .f32⟩
  | 48 => ⟨S1x256, .f32⟩
  | 49 => ⟨S500000x256, .f32⟩
  | 50 => ⟨S500000x256, .f32⟩
  | 51 => ⟨S256x256, .f32⟩
  | 52 => ⟨S500000x256, .f32⟩
  | 53 => ⟨S1x256, .f32⟩
  | 54 => ⟨S500000x256, .f32⟩
  | 55 => ⟨S500000x256, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S500000x1, .i32⟩
  | 64 => ⟨S500000x256, .f32⟩
  | 65 => ⟨S_, .f32⟩
  | 66 => ⟨S100000x256, .f32⟩
  | 67 => ⟨S500000x1, .i32⟩
  | 68 => ⟨S100000x256, .f32⟩
  | 69 => ⟨S100000x256, .f32⟩
  | 70 => ⟨S_, .f32⟩
  | 71 => ⟨S100000, .f32⟩
  | 72 => ⟨S100000, .f32⟩
  | 73 => ⟨S100000x1, .f32⟩
  | 74 => ⟨S100000x256, .f32⟩
  | 75 => ⟨S100000x256, .f32⟩
  | 76 => ⟨S256x256, .f32⟩
  | 77 => ⟨S100000x256, .f32⟩
  | 78 => ⟨S1x256, .f32⟩
  | 79 => ⟨S100000x256, .f32⟩
  | 80 => ⟨S100000x256, .f32⟩
  | 81 => ⟨S256x256, .f32⟩
  | 82 => ⟨S100000x256, .f32⟩
  | 83 => ⟨S100000x256, .f32⟩
  | 84 => ⟨S_, .f32⟩
  | 85 => ⟨S100000x256, .f32⟩
  | 86 => ⟨S100000x256, .f32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x256, .f32⟩
  | 96 => ⟨S_, .f32⟩
  | 97 => ⟨S100000x256, .f32⟩
  | 98 => ⟨S500000x1, .i32⟩
  | 99 => ⟨S100000x256, .f32⟩
  | 100 => ⟨S100000x256, .f32⟩
  | 101 => ⟨S_, .f32⟩
  | 102 => ⟨S100000, .f32⟩
  | 103 => ⟨S100000, .f32⟩
  | 104 => ⟨S100000x1, .f32⟩
  | 105 => ⟨S100000x256, .f32⟩
  | 106 => ⟨S100000x256, .f32⟩
  | 107 => ⟨S256x256, .f32⟩
  | 108 => ⟨S100000x256, .f32⟩
  | 109 => ⟨S1x256, .f32⟩
  | 110 => ⟨S100000x256, .f32⟩
  | 111 => ⟨S100000x256, .f32⟩
  | 112 => ⟨S256x256, .f32⟩
  | 113 => ⟨S100000x256, .f32⟩
  | 114 => ⟨S100000x256, .f32⟩
  | 115 => ⟨S_, .f32⟩
  | 116 => ⟨S100000x256, .f32⟩
  | 117 => ⟨S100000x256, .f32⟩
  | 118 => ⟨S_, .i32⟩
  | 119 => ⟨S16384, .i32⟩
  | 120 => ⟨S16384, .i1⟩
  | 121 => ⟨S_, .i32⟩
  | 122 => ⟨S16384, .i32⟩
  | 123 => ⟨S16384, .i32⟩
  | 124 => ⟨S16384, .i32⟩
  | 125 => ⟨S16384x1, .i32⟩
  | 126 => ⟨S16384x256, .f32⟩
  | 127 => ⟨S_, .i32⟩
  | _ => ⟨S100000x128, .f32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S16384x256, .f32⟩
  | 8 => ⟨S16384x256, .f32⟩
  | 9 => ⟨S16384x256, .f32⟩
  | 10 => ⟨S16384x256, .f32⟩
  | 11 => ⟨S16384x1024, .f32⟩
  | 12 => ⟨S1024x256, .f32⟩
  | 13 => ⟨S16384x256, .f32⟩
  | 14 => ⟨S1x256, .f32⟩
  | 15 => ⟨S16384x256, .f32⟩
  | 16 => ⟨S16384x256, .f32⟩
  | 17 => ⟨S_, .f32⟩
  | 18 => ⟨S16384x256, .f32⟩
  | 19 => ⟨S16384x256, .f32⟩
  | 20 => ⟨S256x1, .f32⟩
  | 21 => ⟨S16384x1, .f32⟩
  | 22 => ⟨S1x1, .f32⟩
  | 23 => ⟨S16384x1, .f32⟩
  | 24 => ⟨S16384x1, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_2 : Ref sig .tc := ⟨.hbm, 56, rfl⟩
abbrev main_v30 : Ref sig .tc := ⟨.hbm, 57, rfl⟩
abbrev main_v31 : Ref sig .tc := ⟨.hbm, 58, rfl⟩
abbrev main_c_3 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call0_cst : Ref sig .tc := ⟨.hbm, 84, rfl⟩
abbrev main_call0_v0 : Ref sig .tc := ⟨.hbm, 85, rfl⟩
abbrev main_v54 : Ref sig .tc := ⟨.hbm, 86, rfl⟩
abbrev main_c_6 : Ref sig .tc := ⟨.hbm, 87, rfl⟩
abbrev main_v55 : Ref sig .tc := ⟨.hbm, 88, rfl⟩
abbrev main_v56 : Ref sig .tc := ⟨.hbm, 89, rfl⟩
abbrev main_c_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_9 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call1_cst : Ref sig .tc := ⟨.hbm, 115, rfl⟩
abbrev main_call1_v0 : Ref sig .tc := ⟨.hbm, 116, rfl⟩
abbrev main_v79 : Ref sig .tc := ⟨.hbm, 117, rfl⟩
abbrev main_c_10 : Ref sig .tc := ⟨.hbm, 118, rfl⟩
abbrev main_v80 : Ref sig .tc := ⟨.hbm, 119, rfl⟩
abbrev main_v81 : Ref sig .tc := ⟨.hbm, 120, rfl⟩
abbrev main_c_11 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_12 : Ref sig .tc := ⟨.hbm, 127, rfl⟩
abbrev main_v87 : Ref sig .tc := ⟨.hbm, 128, rfl⟩
abbrev main_v88 : Ref sig .tc := ⟨.hbm, 129, rfl⟩
abbrev main_c_13 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_call2_cst : Ref sig .tc := ⟨.hbm, 145, rfl⟩
abbrev main_call2_v0 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_14 : Ref sig .tc := ⟨.hbm, 155, rfl⟩
abbrev main_v111 : Ref sig .tc := ⟨.hbm, 156, rfl⟩
abbrev main_v112 : Ref sig .tc := ⟨.hbm, 157, rfl⟩
abbrev main_cst_15 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  transposes_S256x256_S256x256_1_0 : S256x256.Transposes [1, 0] S256x256
  bcast_S1x256_S500000x256_0_1 : S1x256.BroadcastsInDim S500000x256 (![0, 1] : Fin 2 → Fin S500000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x256_S16384x256_S16384x256_S16384x256_S16384x1024_d1 : Shape.Concatenates [S16384x256, S16384x256, S16384x256, S16384x256] S16384x1024 1
  transposes_S256x1024_S1024x256_1_0 : S256x1024.Transposes [1, 0] S1024x256
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S1x256_S256x1_1_0 : S1x256.Transposes [1, 0] S256x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  scatter_S100000_S500000x1_S500000_n_0_0_1_wf : ScatterDims.WF S100000 S500000x1 S500000 [] [0] [0] 1
  dot_S100000x128_S128x256_S100000x256_1_0_0_1_n_n_wf : DotDims.WF S100000x128 S128x256 S100000x256 [1] [0] [0] [1] [] []
  gather_S249x256_S500000x1_S500000x256_1_0_n_n_0_1_1256_wf : GatherDims.WF S249x256 S500000x1 S500000x256 [1] [0] [] [0] [] 1 ![1, 256]
  dot_S500000x256_S256x256_S500000x256_1_0_0_1_n_n_wf : DotDims.WF S500000x256 S256x256 S500000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  gather_S100000x256_S16384x1_S16384x256_1_0_n_n_0_1_1256_wf : GatherDims.WF S100000x256 S16384x1 S16384x256 [1] [0] [] [0] [] 1 ![1, 256]
  dot_S16384x1024_S1024x256_S16384x256_1_0_0_1_n_n_wf : DotDims.WF S16384x1024 S1024x256 S16384x256 [1] [0] [0] [1] [] []
  dot_S16384x256_S256x1_S16384x1_1_0_0_1_n_n_wf : DotDims.WF S16384x256 S256x1 S16384x1 [1] [0] [0] [1] [] []

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S249x256_S500000x1_S500000x256_1_0_n_n_0_1_1256 : GatherDims S249x256 S500000x1 S500000x256 where
  offsetDims := [1]
  collapsedSliceDims := [0]
  operandBatchingDims := []
  startIndicesBatchingDims := []
  startIndexMap := [0]
  indexVectorDim := 1
  sliceSizes := ![1, 256]
  wf := gather_S249x256_S500000x1_S500000x256_1_0_n_n_0_1_1256_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
/-
  The arithmetic of the four kernel bodies, as functions of whole arrays over the extended reals, read at a
  row `p` and a column `q`.

  * `linK`  : a row of `X` against a column of an already transposed weight matrix, plus a bias row:
               `(∑ k, X (p,k) · Wt (k,q)) + B (0,q)`.
  * `sageK` : one aggregation layer. The neighbour sum `nb` and the node's own features `h` are added and
               scaled by the node's factor `invd (p,0)`; that mean goes through one weight matrix, the features
               themselves through another, the bias is added last, and the result is clipped below at zero.
  * `cat4At`: the row `p` of the four blocks `s`, `d`, `s · d`, `|s − d|` laid side by side, at column `k`
               (`|x|` is `max x (−x)` on the extended reals).
  * `linkK` : the two-layer predictor over that row: a hidden layer clipped below at zero, then a second
               product and a bias.
-/
import Idealize.ShloMosaic.PureOps.Ideal
import Idealize.ShloMosaic.Lib.ValueIdx

noncomputable section

namespace Cert.Spec

open Idealize.ShloMosaic Idealize.ShloMosaic.ValueIdx

/-- A matrix of extended reals. -/
abbrev Mat (a b : ℕ) := (⟨2, ![a, b]⟩ : Shape).Idx → EReal

/-- `(∑ k, X (p,k) · Wt (k,q)) + B (0,q)`. -/
def linK {M K N : ℕ} (X : Mat M K) (Wt : Mat K N) (B : Mat 1 N) (p : Fin M) (q : Fin N) : EReal :=
  (∑ k : Fin K, X (ix2 p k) * Wt (ix2 k q)) + B (ix2 (0 : Fin 1) q)

/-- `max (((∑ k, ((nb + h) (p,k) · invd (p,0)) · WlT (k,q)) + ∑ k, h (p,k) · WrT (k,q)) + B (0,q)) 0`. -/
def sageK {M H N : ℕ} (nb h : Mat M H) (invd : Mat M 1) (WlT WrT : Mat H N) (B : Mat 1 N) (p : Fin M) (q : Fin N) : EReal :=
  max (((∑ k : Fin H, ((nb (ix2 p k) + h (ix2 p k)) * invd (ix2 p (0 : Fin 1))) * WlT (ix2 k q))
        + ∑ k : Fin H, h (ix2 p k) * WrT (ix2 k q)) + B (ix2 (0 : Fin 1) q)) 0

/-- Row `p` of `[s, d, s · d, |s − d|]` (four blocks of 256 columns) at column `k`. -/
def cat4At {M : ℕ} (s d : Mat M 256) (p : Fin M) (k : Fin 1024) : EReal :=
  if h0 : k.val < 256 then s (ix2 p ⟨k.val, h0⟩)
  else if h1 : k.val < 512 then d (ix2 p ⟨k.val - 256, by omega⟩)
  else if h2 : k.val < 768 then s (ix2 p ⟨k.val - 512, by omega⟩) * d (ix2 p ⟨k.val - 512, by omega⟩)
  else max (s (ix2 p ⟨k.val - 768, by omega⟩) - d (ix2 p ⟨k.val - 768, by omega⟩))
           (-(s (ix2 p ⟨k.val - 768, by omega⟩) - d (ix2 p ⟨k.val - 768, by omega⟩)))

/-- `(∑ j, max ((∑ k, cat4At s d p k · W1t (k,j)) + B1 (0,j)) 0 · W2 (j,q)) + B2 (0,q)`. -/
def linkK {M N : ℕ} (s d : Mat M 256) (W1t : Mat 1024 256) (B1 : Mat 1 256) (W2 : Mat 256 N) (B2 : Mat 1 N)
    (p : Fin M) (q : Fin N) : EReal :=
  (∑ j : Fin 256, max ((∑ k : Fin 1024, cat4At s d p k * W1t (ix2 k j)) + B1 (ix2 (0 : Fin 1) j)) 0 * W2 (ix2 j q))
    + B2 (ix2 (0 : Fin 1) q)

end Cert.Spec

end
-- ==== Proof.KVal.lean ====
/-
  The kernel program's values as functions of the argument arrays, at the ideal instance (every float an extended
  real, a change of format the identity).

  `src` / `dst` are the two rows of the edge list; `deg` counts, for every node, the edges that point at it (a sum of
  ones scattered by `dst`), and `invd` is the column of factors `1 / (deg + 1)`. `h0` is the embedding of the node
  features; `agg h` gathers the rows of `h` at the (wrapped) source nodes and adds them up at the destination nodes;
  `layer` is one aggregation layer over `agg h`, `h` and `invd`; `pick h s` takes the rows of `h` at the (wrapped)
  node ids `s`; `logits` is the two-layer predictor over the picked rows, whose second weight matrix and bias are padded
  with zeros from one column to 128; `out` applies `1 / (1 + exp (−·))` to column 0 of `logits`.
-/
import proofs.«431383_j21732534518206_2_alg».proof.KernelIdeal
import proofs.«431383_j21732534518206_2_alg».proof.Proof.Gen.KernelIdeal
import proofs.«431383_j21732534518206_2_alg».proof.Proof.Spec
import Idealize.ShloMosaic.PureOps.Ideal

noncomputable section

namespace Cert.KernelIdeal.KVal

open Idealize.ShloMosaic Idealize.ShloMosaic.ValueIdx Cert.KernelIdeal
open Cert.KernelIdeal.Facts₀ Cert.KernelIdeal.Facts

/-- The contents of a buffer of shape `S` and element type `e`, at the ideal instance. -/
abbrev C (S : Shape) (e : EltTy) := (⟨S, e⟩ : BufTy).Contents (Elt Ideal)

/-- Row 0 of the edge list: the source node of every edge. -/
def src (x1 : C S2x500000 .i32) : C S500000 .i32 :=
  shapeCast S500000 (extractStridedSlice S1x500000 ![0, 0] x1 slices_S2x500000_S1x500000_0_0) shapeCasts_S1x500000_S500000
/-- Row 1 of the edge list: the destination node of every edge. -/
def dst (x1 : C S2x500000 .i32) : C S500000 .i32 :=
  shapeCast S500000 (extractStridedSlice S1x500000 ![1, 0] x1 slices_S2x500000_S1x500000_1_0) shapeCasts_S1x500000_S500000
/-- For every node, the number of edges that point at it: ones added up at the destination nodes. -/
def deg (x1 : C S2x500000 .i32) : C S100000 .f32 :=
  Host.scatterAdd scatter_S100000_S500000x1_S500000_n_0_0_1
    (broadcastInDim S100000 ![] bcast_S_S100000 (constant (F := Ideal) S_ .f32 0x00000000#32))
    (broadcastInDim S500000x1 ![0] bcast_S500000_S500000x1_0 (dst x1))
    (broadcastInDim S500000 ![] bcast_S_S500000 (constant (F := Ideal) S_ .f32 0x3F800000#32))
/-- The column of factors `1 / (deg + 1)`. -/
def invd (x1 : C S2x500000 .i32) : C S100000x1 .f32 :=
  shapeCast S100000x1
    (Host.divf (F := Ideal) (broadcastInDim S100000 ![] bcast_S_S100000 (constant (F := Ideal) S_ .f32 0x3F800000#32))
      (addf (deg x1) (broadcastInDim S100000 ![] bcast_S_S100000 (constant (F := Ideal) S_ .f32 0x3F800000#32))))
    shapeCasts_S100000_S100000x1
/-- The embedding weights, transposed. -/
def wT5 (x5 : C S256x128 .f32) : C S128x256 .bf16 :=
  truncf (F := Ideal) .bf16 (transpose S128x256 [1, 0] x5 transposes_S256x128_S128x256_1_0) bitsLt_bf16_f32
/-- A bias vector as a row. -/
def bR (b : C S256 .f32) : C S1x256 .f32 := shapeCast S1x256 b shapeCasts_S256_S1x256
/-- The node embedding. -/
def h0 (x0 : C S100000x128 .f32) (x5 : C S256x128 .f32) (x6 : C S256 .f32) : C S100000x256 .bf16 :=
  fun i => Cert.Spec.linK x0 (wT5 x5) (bR x6) (i 0) (i 1)
/-- Node ids with the negative ones wrapped around by the number of nodes, as a column of start indices. -/
def nidx (s : C S500000 .i32) : C S500000x1 .i32 :=
  broadcastInDim S500000x1 ![0] bcast_S500000_S500000x1_0
    (select (cmpi .slt s (broadcastInDim S500000 ![] bcast_S_S500000 (constantI S_ 32 0#32)))
      (addi s (broadcastInDim S500000 ![] bcast_S_S500000 (constantI S_ 32 100000#32))) s)
/-- The rows of `h` at the source nodes, added up at the destination nodes. -/
def agg (x1 : C S2x500000 .i32) (h : C S100000x256 .bf16) : C S100000x256 .f32 :=
  Host.scatterAdd scatter_S100000x256_S500000x1_S500000x256_1_0_0_1
    (broadcastInDim S100000x256 ![] bcast_S_S100000x256 (constant (F := Ideal) S_ .f32 0x00000000#32))
    (broadcastInDim S500000x1 ![0] bcast_S500000_S500000x1_0 (dst x1))
    (extf (F := Ideal) .f32 (Host.gather gather_S100000x256_S500000x1_S500000x256_1_0_n_n_0_1_1256 h (nidx (src x1))) bitsLt_bf16_f32)
/-- A square weight matrix, transposed. -/
def wT (w : C S256x256 .f32) : C S256x256 .bf16 :=
  truncf (F := Ideal) .bf16 (transpose S256x256 [1, 0] w transposes_S256x256_S256x256_1_0) bitsLt_bf16_f32
/-- One aggregation layer. -/
def layer (x1 : C S2x500000 .i32) (h : C S100000x256 .bf16) (wl : C S256x256 .f32) (bl : C S256 .f32) (wr : C S256x256 .f32) :
    C S100000x256 .bf16 :=
  fun i => Cert.Spec.sageK (agg x1 h) h (invd x1) (wT wl) (wT wr) (bR bl) (i 0) (i 1)
/-- Pair ids with the negative ones wrapped around, as a column of start indices. -/
def lidx (s : C S16384 .i32) : C S16384x1 .i32 :=
  broadcastInDim S16384x1 ![0] bcast_S16384_S16384x1_0
    (select (cmpi .slt s (broadcastInDim S16384 ![] bcast_S_S16384 (constantI S_ 32 0#32)))
      (addi s (broadcastInDim S16384 ![] bcast_S_S16384 (constantI S_ 32 100000#32))) s)
/-- The rows of `h` at the node ids `s`. -/
def pick (h : C S100000x256 .bf16) (s : C S16384 .i32) : C S16384x256 .bf16 :=
  Host.gather gather_S100000x256_S16384x1_S16384x256_1_0_n_n_0_1_1256 h (lidx s)
/-- The predictor's first weight matrix, transposed. -/
def w1T (x18 : C S256x1024 .f32) : C S1024x256 .bf16 :=
  truncf (F := Ideal) .bf16 (transpose S1024x256 [1, 0] x18 transposes_S256x1024_S1024x256_1_0) bitsLt_bf16_f32
/-- The predictor's second weight row as column 0 of a 256 × 128 matrix of zeros. -/
def w2p (x20 : C S1x256 .f32) : C S256x128 .bf16 :=
  truncf (F := Ideal) .bf16
    (Host.scatter scatter_S256x128_S1_S256_0_1_1_0 (fun _ b => b)
      (broadcastInDim S256x128 ![] bcast_S_S256x128 (constant (F := Ideal) S_ .f32 0x00000000#32))
      (broadcastInDim S1 ![] bcast_S_S1 (constantI S_ 32 0#32))
      (shapeCast S256 x20 shapeCasts_S1x256_S256))
    bitsLt_bf16_f32
/-- The predictor's second bias as entry (0, 0) of a row of 128 zeros. -/
def b2p (x21 : C S1 .f32) : C S1x128 .f32 :=
  Host.scatter scatter_S1x128_S2_S__n_01_01_0 (fun _ b => b)
    (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0)
    (shapeCast S_ x21 shapeCasts_S1_S_)
/-- The predictor's padded output over the rows of `h` picked at `x3` and at `x4`. -/
def logits (h : C S100000x256 .bf16) (x3 x4 : C S16384 .i32) (x18 : C S256x1024 .f32) (x19 : C S256 .f32) (x20 : C S1x256 .f32)
    (x21 : C S1 .f32) : C S16384x128 .f32 :=
  fun i => Cert.Spec.linkK (pick h x3) (pick h x4) (w1T x18) (bR x19) (w2p x20) (b2p x21) (i 0) (i 1)
/-- `1 / (1 + exp (−·))` of column 0 of an array of padded outputs. -/
def sig0 (l : C S16384x128 .f32) : C S16384 .f32 :=
  Host.divf (F := Ideal) (broadcastInDim S16384 ![] bcast_S_S16384 (constant (F := Ideal) S_ .f32 0x3F800000#32))
    (addf (broadcastInDim S16384 ![] bcast_S_S16384 (constant (F := Ideal) S_ .f32 0x3F800000#32))
      (Host.exp (F := Ideal) (Host.negf (F := Ideal)
        (shapeCast S16384 (extractStridedSlice S16384x1 ![0, 0] l slices_S16384x128_S16384x1_0_0) shapeCasts_S16384x1_S16384))))
/-- The program's result over the last layer's features `h`. -/
def out (h : C S100000x256 .bf16) (x3 x4 : C S16384 .i32) (x18 : C S256x1024 .f32) (x19 : C S256 .f32) (x20 : C S1x256 .f32)
    (x21 : C S1 .f32) : C S16384 .f32 :=
  sig0 (logits h x3 x4 x18 x19 x20 x21)

end Cert.KernelIdeal.KVal

end
-- ==== Proof.KChain.lean ====
/-
  The kernel program's buffers at every boundary of @main — after each stretch of host operations and after each of the
  four calls — as the functions of the argument arrays that `KVal` names, down to the result buffer at the return.
  A buffer no operation of a stretch writes, and no call stages as a window's array, keeps what it held at the boundary
  before; a buffer an operation writes holds that operation's function of its operands; a call's result array holds
  the call's closed formula over the arrays it found (the four hypotheses `hr0 … hr3`, proved with each call's blocks).
-/
import proofs.«431383_j21732534518206_2_alg».proof.Proof.Gen.KernelIdeal.Frame
import proofs.«431383_j21732534518206_2_alg».proof.Proof.KVal
import Idealize.ShloMosaic.PureOps.Ideal
import Idealize.ShloMosaic.Lib.ValueIdx
import Idealize.ShloMosaic.Lib.Pipeline.Value

set_option maxRecDepth 16384

noncomputable section

namespace Cert.KernelIdeal.KChain

open Idealize.ShloMosaic Idealize.ShloMosaic.TcCoe Idealize.ShloMosaic.Tactic Idealize.ShloMosaic.ValueIdx Idealize.SL.Sem Idealize.ShloMosaic.StableHlo
open Cert.KernelIdeal Cert.KernelIdeal.Gen Cert.KernelIdeal.KVal

/-- No operation of the stretch writes the buffer: it keeps its contents. -/
macro "host_kept" : tactic => `(tactic|
  (refine StableHlo.after_of_forall_not_mem _ _ (List.forall_iff_forall_mem.mp (by
      simp only [hostOps0, hostOps1, hostOps2, hostOps3, hostOps4, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))))

variable (m : (ℓ : Loc nD τ sig) → Buf (Elt Ideal) ℓ) (ρ : Dev nD → PrngReg) (c : Dev nD)

/-- The argument arrays that are read after the first call. -/
def lateArgs : List (Ref sig .tc) :=
  [main_arg3, main_arg4, main_arg8, main_arg9, main_arg10, main_arg13, main_arg14, main_arg15, main_arg18, main_arg19, main_arg20, main_arg21]

/-! ## The late arguments keep their launch contents up to the boundary where they are read -/

theorem keepH0 : ∀ b ∈ lateArgs, W1 m ρ c (Proc.devRef .tc b) = W0 m ρ c (Proc.devRef .tc b) := by
  simp only [lateArgs, List.forall_mem_cons, List.not_mem_nil, false_imp_iff, implies_true, and_true]
  repeat' apply And.intro
  all_goals host_kept
theorem keepR0 : ∀ b ∈ lateArgs, W2 m ρ c (Proc.devRef .tc b) = W1 m ρ c (Proc.devRef .tc b) := by
  simp only [lateArgs, List.forall_mem_cons, List.not_mem_nil, false_imp_iff, implies_true, and_true]
  repeat' apply And.intro
  all_goals exact W2_of_ne m ρ c _ (by decide)
theorem keepH1 : ∀ b ∈ lateArgs, W3 m ρ c (Proc.devRef .tc b) = W2 m ρ c (Proc.devRef .tc b) := by
  simp only [lateArgs, List.forall_mem_cons, List.not_mem_nil, false_imp_iff, implies_true, and_true]
  repeat' apply And.intro
  all_goals host_kept
theorem keepR1 : ∀ b ∈ lateArgs, W4 m ρ c (Proc.devRef .tc b) = W3 m ρ c (Proc.devRef .tc b) := by
  simp only [lateArgs, List.forall_mem_cons, List.not_mem_nil, false_imp_iff, implies_true, and_true]
  repeat' apply And.intro
  all_goals exact W4_of_ne m ρ c _ (by decide)
theorem keepH2 : ∀ b ∈ lateArgs, W5 m ρ c (Proc.devRef .tc b) = W4 m ρ c (Proc.devRef .tc b) := by
  simp only [lateArgs, List.forall_mem_cons, List.not_mem_nil, false_imp_iff, implies_true, and_true]
  repeat' apply And.intro
  all_goals host_kept
theorem keepR2 : ∀ b ∈ lateArgs, W6 m ρ c (Proc.devRef .tc b) = W5 m ρ c (Proc.devRef .tc b) := by
  simp only [lateArgs, List.forall_mem_cons, List.not_mem_nil, false_imp_iff, implies_true, and_true]
  repeat' apply And.intro
  all_goals exact W6_of_ne m ρ c _ (by decide)

theorem arg_at2 (b : Ref sig .tc) (hb : b ∈ lateArgs) : W2 m ρ c (Proc.devRef .tc b) = m ((c : Thread nD τ).loc b) :=
  (keepR0 m ρ c b hb).trans ((keepH0 m ρ c b hb).trans rfl)
theorem arg_at4 (b : Ref sig .tc) (hb : b ∈ lateArgs) : W4 m ρ c (Proc.devRef .tc b) = m ((c : Thread nD τ).loc b) :=
  (keepR1 m ρ c b hb).trans ((keepH1 m ρ c b hb).trans (arg_at2 m ρ c b hb))
theorem arg_at6 (b : Ref sig .tc) (hb : b ∈ lateArgs) : W6 m ρ c (Proc.devRef .tc b) = m ((c : Thread nD τ).loc b) :=
  (keepR2 m ρ c b hb).trans ((keepH2 m ρ c b hb).trans (arg_at4 m ρ c b hb))

/-! ## The first stretch: the edge list's rows, the factors, the embedding's weights -/

theorem W1_arg0 : W1 m ρ c (Proc.devRef .tc main_arg0) = m ((c : Thread nD τ).loc main_arg0) :=
  (by host_kept : W1 m ρ c (Proc.devRef .tc main_arg0) = W0 m ρ c (Proc.devRef .tc main_arg0)).trans rfl
theorem W1_v1 : W1 m ρ c (Proc.devRef .tc main_v1) = src (m ((c : Thread nD τ).loc main_arg1)) := by
  show StableHlo.after hostOps0 (W0 m ρ c) (Proc.devRef .tc main_v1) = _
  after_results
  rfl
theorem W1_v3 : W1 m ρ c (Proc.devRef .tc main_v3) = dst (m ((c : Thread nD τ).loc main_arg1)) := by
  show StableHlo.after hostOps0 (W0 m ρ c) (Proc.devRef .tc main_v3) = _
  after_results
  rfl
theorem W1_v12 : W1 m ρ c (Proc.devRef .tc main_v12) = invd (m ((c : Thread nD τ).loc main_arg1)) := by
  show StableHlo.after hostOps0 (W0 m ρ c) (Proc.devRef .tc main_v12) = _
  after_results
  rfl
theorem W1_v14 : W1 m ρ c (Proc.devRef .tc main_v14) = wT5 (m ((c : Thread nD τ).loc main_arg5)) := by
  show StableHlo.after hostOps0 (W0 m ρ c) (Proc.devRef .tc main_v14) = _
  after_results
  rfl
theorem W1_v15 : W1 m ρ c (Proc.devRef .tc main_v15) = bR (m ((c : Thread nD τ).loc main_arg6)) := by
  show StableHlo.after hostOps0 (W0 m ρ c) (Proc.devRef .tc main_v15) = _
  after_results
  rfl

/-! ## The edge list's rows and the factors at the later boundaries -/

theorem W2_v1 : W2 m ρ c (Proc.devRef .tc main_v1) = src (m ((c : Thread nD τ).loc main_arg1)) := (W2_of_ne m ρ c main_v1 (by decide)).trans (W1_v1 m ρ c)
theorem W2_v3 : W2 m ρ c (Proc.devRef .tc main_v3) = dst (m ((c : Thread nD τ).loc main_arg1)) := (W2_of_ne m ρ c main_v3 (by decide)).trans (W1_v3 m ρ c)
theorem W2_v12 : W2 m ρ c (Proc.devRef .tc main_v12) = invd (m ((c : Thread nD τ).loc main_arg1)) := (W2_of_ne m ρ c main_v12 (by decide)).trans (W1_v12 m ρ c)
theorem W3_v1 : W3 m ρ c (Proc.devRef .tc main_v1) = src (m ((c : Thread nD τ).loc main_arg1)) :=
  (by host_kept : W3 m ρ c (Proc.devRef .tc main_v1) = W2 m ρ c (Proc.devRef .tc main_v1)).trans (W2_v1 m ρ c)
theorem W3_v3 : W3 m ρ c (Proc.devRef .tc main_v3) = dst (m ((c : Thread nD τ).loc main_arg1)) :=
  (by host_kept : W3 m ρ c (Proc.devRef .tc main_v3) = W2 m ρ c (Proc.devRef .tc main_v3)).trans (W2_v3 m ρ c)
theorem W3_v12 : W3 m ρ c (Proc.devRef .tc main_v12) = invd (m ((c : Thread nD τ).loc main_arg1)) :=
  (by host_kept : W3 m ρ c (Proc.devRef .tc main_v12) = W2 m ρ c (Proc.devRef .tc main_v12)).trans (W2_v12 m ρ c)
theorem W4_v1 : W4 m ρ c (Proc.devRef .tc main_v1) = src (m ((c : Thread nD τ).loc main_arg1)) := (W4_of_ne m ρ c main_v1 (by decide)).trans (W3_v1 m ρ c)
theorem W4_v3 : W4 m ρ c (Proc.devRef .tc main_v3) = dst (m ((c : Thread nD τ).loc main_arg1)) := (W4_of_ne m ρ c main_v3 (by decide)).trans (W3_v3 m ρ c)
/-- The factors are an input of the second call: its window's array ends as it was found. -/
theorem W4_v12 : W4 m ρ c (Proc.devRef .tc main_v12) = invd (m ((c : Thread nD τ).loc main_arg1)) :=
  ((W4_arr m ρ c 2).trans (((dat1 (V3 m ρ) c).arrAt_in 2 rfl _).trans (A_eq1 (V3 m ρ) c 2))).trans (W3_v12 m ρ c)
theorem W5_v12 : W5 m ρ c (Proc.devRef .tc main_v12) = invd (m ((c : Thread nD τ).loc main_arg1)) :=
  (by host_kept : W5 m ρ c (Proc.devRef .tc main_v12) = W4 m ρ c (Proc.devRef .tc main_v12)).trans (W4_v12 m ρ c)

/-! ## The four calls' closed formulas, as hypotheses -/

variable (hr0 : ∀ (V : (c : Dev nD) → (b : Ref sig .tc) → Buf (Elt Ideal) ((c : Thread nD τ).loc b)) (c : Dev nD) (p : Fin 100000) (q : Fin 256),
    ((dat0 (F := Ideal) V c).arrAt 3 cfg0.N : S100000x256.Idx → EReal) (ix2 p q)
      = Cert.Spec.linK (V c main_arg0) (V c main_v14) (V c main_v15) p q)
variable (hr1 : ∀ (V : (c : Dev nD) → (b : Ref sig .tc) → Buf (Elt Ideal) ((c : Thread nD τ).loc b)) (c : Dev nD) (p : Fin 100000) (q : Fin 256),
    ((dat1 (F := Ideal) V c).arrAt 6 cfg1.N : S100000x256.Idx → EReal) (ix2 p q)
      = Cert.Spec.sageK (V c main_v27) (V c main_v16) (V c main_v12) (V c main_v30) (V c main_v31) (V c main_v32) p q)
variable (hr2 : ∀ (V : (c : Dev nD) → (b : Ref sig .tc) → Buf (Elt Ideal) ((c : Thread nD τ).loc b)) (c : Dev nD) (p : Fin 100000) (q : Fin 256),
    ((dat2 (F := Ideal) V c).arrAt 6 cfg2.N : S100000x256.Idx → EReal) (ix2 p q)
      = Cert.Spec.sageK (V c main_v44) (V c main_v33) (V c main_v12) (V c main_v47) (V c main_v48) (V c main_v49) p q)
variable (hr3 : ∀ (V : (c : Dev nD) → (b : Ref sig .tc) → Buf (Elt Ideal) ((c : Thread nD τ).loc b)) (c : Dev nD) (p : Fin 16384) (q : Fin 128),
    ((dat3 (F := Ideal) V c).arrAt 6 cfg3.N : S16384x128.Idx → EReal) (ix2 p q)
      = Cert.Spec.linkK (V c main_v57) (V c main_v64) (V c main_v66) (V c main_v67) (V c main_v72) (V c main_v78) p q)

/-! ## The first call: the node embedding -/

include hr0 in
theorem W2_v16 : W2 m ρ c (Proc.devRef .tc main_v16) = h0 (m ((c : Thread nD τ).loc main_arg0)) (m ((c : Thread nD τ).loc main_arg5)) (m ((c : Thread nD τ).loc main_arg6)) := by
  refine (W2_arr m ρ c 3).trans ?_
  funext i
  obtain ⟨p, q, rfl⟩ : ∃ (p : Fin 100000) (q : Fin 256), i = ix2 p q := ⟨i 0, i 1, eq_ix2 i⟩
  refine (hr0 (V1 m ρ) c p q).trans ?_
  show Cert.Spec.linK (W1 m ρ c (Proc.devRef .tc main_arg0)) (W1 m ρ c (Proc.devRef .tc main_v14)) (W1 m ρ c (Proc.devRef .tc main_v15)) p q = _
  rw [W1_arg0, W1_v14, W1_v15]
  rfl

/-! ## The second stretch and the second call: the first layer -/

include hr0 in
theorem W3_v16 : W3 m ρ c (Proc.devRef .tc main_v16) = h0 (m ((c : Thread nD τ).loc main_arg0)) (m ((c : Thread nD τ).loc main_arg5)) (m ((c : Thread nD τ).loc main_arg6)) :=
  (by host_kept : W3 m ρ c (Proc.devRef .tc main_v16) = W2 m ρ c (Proc.devRef .tc main_v16)).trans (W2_v16 m ρ c hr0)
include hr0 in
theorem W3_v27 : W3 m ρ c (Proc.devRef .tc main_v27) = agg (m ((c : Thread nD τ).loc main_arg1)) (h0 (m ((c : Thread nD τ).loc main_arg0)) (m ((c : Thread nD τ).loc main_arg5)) (m ((c : Thread nD τ).loc main_arg6))) := by
  show StableHlo.after hostOps1 (W2 m ρ c) (Proc.devRef .tc main_v27) = _
  after_results_simp
  rw [W2_v3, W2_v1, W2_v16 m ρ c hr0]
  rfl
theorem W3_v30 : W3 m ρ c (Proc.devRef .tc main_v30) = wT (m ((c : Thread nD τ).loc main_arg8)) := by
  show StableHlo.after hostOps1 (W2 m ρ c) (Proc.devRef .tc main_v30) = _
  after_results
  rw [arg_at2 m ρ c main_arg8 (by decide)]
  rfl
theorem W3_v31 : W3 m ρ c (Proc.devRef .tc main_v31) = wT (m ((c : Thread nD τ).loc main_arg10)) := by
  show StableHlo.after hostOps1 (W2 m ρ c) (Proc.devRef .tc main_v31) = _
  after_results
  rw [arg_at2 m ρ c main_arg10 (by decide)]
  rfl
theorem W3_v32 : W3 m ρ c (Proc.devRef .tc main_v32) = bR (m ((c : Thread nD τ).loc main_arg9)) := by
  show StableHlo.after hostOps1 (W2 m ρ c) (Proc.devRef .tc main_v32) = _
  after_results
  rw [arg_at2 m ρ c main_arg9 (by decide)]
  rfl
include hr0 hr1 in
theorem W4_v33 : W4 m ρ c (Proc.devRef .tc main_v33) = layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10)) := by
  refine (W4_arr m ρ c 6).trans ?_
  funext i
  obtain ⟨p, q, rfl⟩ : ∃ (p : Fin 100000) (q : Fin 256), i = ix2 p q := ⟨i 0, i 1, eq_ix2 i⟩
  refine (hr1 (V3 m ρ) c p q).trans ?_
  show Cert.Spec.sageK (W3 m ρ c (Proc.devRef .tc main_v27)) (W3 m ρ c (Proc.devRef .tc main_v16)) (W3 m ρ c (Proc.devRef .tc main_v12))
    (W3 m ρ c (Proc.devRef .tc main_v30)) (W3 m ρ c (Proc.devRef .tc main_v31)) (W3 m ρ c (Proc.devRef .tc main_v32)) p q = _
  rw [W3_v27 m ρ c hr0, W3_v16 m ρ c hr0, W3_v12, W3_v30, W3_v31, W3_v32]
  rfl

/-! ## The third stretch and the third call: the second layer -/

include hr0 hr1 in
theorem W5_v33 : W5 m ρ c (Proc.devRef .tc main_v33) = layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10)) :=
  (by host_kept : W5 m ρ c (Proc.devRef .tc main_v33) = W4 m ρ c (Proc.devRef .tc main_v33)).trans (W4_v33 m ρ c hr0 hr1)
include hr0 hr1 in
theorem W5_v44 : W5 m ρ c (Proc.devRef .tc main_v44) = agg (m ((c : Thread nD τ).loc main_arg1)) (layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10))) := by
  show StableHlo.after hostOps2 (W4 m ρ c) (Proc.devRef .tc main_v44) = _
  after_results_simp
  rw [W4_v3, W4_v1, W4_v33 m ρ c hr0 hr1]
  rfl
theorem W5_v47 : W5 m ρ c (Proc.devRef .tc main_v47) = wT (m ((c : Thread nD τ).loc main_arg13)) := by
  show StableHlo.after hostOps2 (W4 m ρ c) (Proc.devRef .tc main_v47) = _
  after_results
  rw [arg_at4 m ρ c main_arg13 (by decide)]
  rfl
theorem W5_v48 : W5 m ρ c (Proc.devRef .tc main_v48) = wT (m ((c : Thread nD τ).loc main_arg15)) := by
  show StableHlo.after hostOps2 (W4 m ρ c) (Proc.devRef .tc main_v48) = _
  after_results
  rw [arg_at4 m ρ c main_arg15 (by decide)]
  rfl
theorem W5_v49 : W5 m ρ c (Proc.devRef .tc main_v49) = bR (m ((c : Thread nD τ).loc main_arg14)) := by
  show StableHlo.after hostOps2 (W4 m ρ c) (Proc.devRef .tc main_v49) = _
  after_results
  rw [arg_at4 m ρ c main_arg14 (by decide)]
  rfl
include hr0 hr1 hr2 in
theorem W6_v50 : W6 m ρ c (Proc.devRef .tc main_v50) = layer (m ((c : Thread nD τ).loc main_arg1)) (layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10))) (m ((c : Thread nD τ).loc main_arg13)) (m ((c : Thread nD τ).loc main_arg14)) (m ((c : Thread nD τ).loc main_arg15)) := by
  refine (W6_arr m ρ c 6).trans ?_
  funext i
  obtain ⟨p, q, rfl⟩ : ∃ (p : Fin 100000) (q : Fin 256), i = ix2 p q := ⟨i 0, i 1, eq_ix2 i⟩
  refine (hr2 (V5 m ρ) c p q).trans ?_
  show Cert.Spec.sageK (W5 m ρ c (Proc.devRef .tc main_v44)) (W5 m ρ c (Proc.devRef .tc main_v33)) (W5 m ρ c (Proc.devRef .tc main_v12))
    (W5 m ρ c (Proc.devRef .tc main_v47)) (W5 m ρ c (Proc.devRef .tc main_v48)) (W5 m ρ c (Proc.devRef .tc main_v49)) p q = _
  rw [W5_v44 m ρ c hr0 hr1, W5_v33 m ρ c hr0 hr1, W5_v12, W5_v47, W5_v48, W5_v49]
  rfl

/-! ## The fourth stretch and the fourth call: the predictor -/

include hr0 hr1 hr2 in
theorem W7_v57 : W7 m ρ c (Proc.devRef .tc main_v57) = pick (layer (m ((c : Thread nD τ).loc main_arg1)) (layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10))) (m ((c : Thread nD τ).loc main_arg13)) (m ((c : Thread nD τ).loc main_arg14)) (m ((c : Thread nD τ).loc main_arg15))) (m ((c : Thread nD τ).loc main_arg3)) := by
  show StableHlo.after hostOps3 (W6 m ρ c) (Proc.devRef .tc main_v57) = _
  after_results_simp
  rw [W6_v50 m ρ c hr0 hr1 hr2, arg_at6 m ρ c main_arg3 (by decide)]
  rfl
include hr0 hr1 hr2 in
theorem W7_v64 : W7 m ρ c (Proc.devRef .tc main_v64) = pick (layer (m ((c : Thread nD τ).loc main_arg1)) (layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10))) (m ((c : Thread nD τ).loc main_arg13)) (m ((c : Thread nD τ).loc main_arg14)) (m ((c : Thread nD τ).loc main_arg15))) (m ((c : Thread nD τ).loc main_arg4)) := by
  show StableHlo.after hostOps3 (W6 m ρ c) (Proc.devRef .tc main_v64) = _
  after_results_simp
  rw [W6_v50 m ρ c hr0 hr1 hr2, arg_at6 m ρ c main_arg4 (by decide)]
  rfl
theorem W7_v66 : W7 m ρ c (Proc.devRef .tc main_v66) = w1T (m ((c : Thread nD τ).loc main_arg18)) := by
  show StableHlo.after hostOps3 (W6 m ρ c) (Proc.devRef .tc main_v66) = _
  after_results
  rw [arg_at6 m ρ c main_arg18 (by decide)]
  rfl
theorem W7_v67 : W7 m ρ c (Proc.devRef .tc main_v67) = bR (m ((c : Thread nD τ).loc main_arg19)) := by
  show StableHlo.after hostOps3 (W6 m ρ c) (Proc.devRef .tc main_v67) = _
  after_results
  rw [arg_at6 m ρ c main_arg19 (by decide)]
  rfl
theorem W7_v72 : W7 m ρ c (Proc.devRef .tc main_v72) = w2p (m ((c : Thread nD τ).loc main_arg20)) := by
  show StableHlo.after hostOps3 (W6 m ρ c) (Proc.devRef .tc main_v72) = _
  after_results_simp
  rw [arg_at6 m ρ c main_arg20 (by decide)]
  rfl
set_option maxHeartbeats 4000000 in
theorem W7_v78 : W7 m ρ c (Proc.devRef .tc main_v78) = b2p (m ((c : Thread nD τ).loc main_arg21)) := by
  show StableHlo.after hostOps3 (W6 m ρ c) (Proc.devRef .tc main_v78) = _
  after_results
  rw [arg_at6 m ρ c main_arg21 (by decide)]
  rfl
include hr0 hr1 hr2 hr3 in
theorem W8_v79 : W8 m ρ c (Proc.devRef .tc main_v79)
    = logits (layer (m ((c : Thread nD τ).loc main_arg1)) (layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10))) (m ((c : Thread nD τ).loc main_arg13)) (m ((c : Thread nD τ).loc main_arg14)) (m ((c : Thread nD τ).loc main_arg15))) (m ((c : Thread nD τ).loc main_arg3)) (m ((c : Thread nD τ).loc main_arg4)) (m ((c : Thread nD τ).loc main_arg18)) (m ((c : Thread nD τ).loc main_arg19)) (m ((c : Thread nD τ).loc main_arg20)) (m ((c : Thread nD τ).loc main_arg21)) := by
  refine (W8_arr m ρ c 6).trans ?_
  funext i
  obtain ⟨p, q, rfl⟩ : ∃ (p : Fin 16384) (q : Fin 128), i = ix2 p q := ⟨i 0, i 1, eq_ix2 i⟩
  refine (hr3 (V7 m ρ) c p q).trans ?_
  show Cert.Spec.linkK (W7 m ρ c (Proc.devRef .tc main_v57)) (W7 m ρ c (Proc.devRef .tc main_v64)) (W7 m ρ c (Proc.devRef .tc main_v66))
    (W7 m ρ c (Proc.devRef .tc main_v67)) (W7 m ρ c (Proc.devRef .tc main_v72)) (W7 m ρ c (Proc.devRef .tc main_v78)) p q = _
  rw [W7_v57 m ρ c hr0 hr1 hr2, W7_v64 m ρ c hr0 hr1 hr2, W7_v66, W7_v67, W7_v72, W7_v78]
  rfl

/-! ## The last stretch: the result -/

include hr0 hr1 hr2 hr3 in
/-- The result buffer at the return, as a function of the argument arrays at launch. -/
theorem W9_v87 : W9 m ρ c (Proc.devRef .tc main_v87)
    = out (layer (m ((c : Thread nD τ).loc main_arg1)) (layer (m ((c : Thread nD τ).loc main_arg1)) (h0 (m ((c : Thread nD τ).loc main_arg0)) (m ((c : Thread nD τ).loc main_arg5)) (m ((c : Thread nD τ).loc main_arg6))) (m ((c : Thread nD τ).loc main_arg8)) (m ((c : Thread nD τ).loc main_arg9)) (m ((c : Thread nD τ).loc main_arg10))) (m ((c : Thread nD τ).loc main_arg13)) (m ((c : Thread nD τ).loc main_arg14)) (m ((c : Thread nD τ).loc main_arg15))) (m ((c : Thread nD τ).loc main_arg3)) (m ((c : Thread nD τ).loc main_arg4)) (m ((c : Thread nD τ).loc main_arg18)) (m ((c : Thread nD τ).loc main_arg19)) (m ((c : Thread nD τ).loc main_arg20)) (m ((c : Thread nD τ).loc main_arg21)) := by
  show StableHlo.after hostOps4 (W8 m ρ c) (Proc.devRef .tc main_v87) = _
  after_results
  rw [W8_v79 m ρ c hr0 hr1 hr2 hr3]
  rfl

end Cert.KernelIdeal.KChain

end
-- ==== Proof.LibDot.lean ====
/-
  A plain matrix product read at an index, at the ideal values.

  For dimension numbers that contract the left operand's axis 1 with the right operand's axis 0 and keep the
  left's axis 0 and the right's axis 1, with no batch axis — an `M × K` by `K × N` product —, the result at
  `(a, b)` is `∑ k, l (a, k) · r (k, b)` over `k : Fin K`: for the kernel's matrix unit accumulating into a
  zero vector and for the host's `dot_general` alike. The library states both as a sum over the contraction
  shape's indices at the operand indices `lhsIdx` / `rhsIdx`; here those are read off, coordinate by
  coordinate, and the sum is re-indexed by the contraction shape's one coordinate.
-/
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

/-- The left operand's row is the result's row. -/
theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction coordinate. -/
theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

/-- The right operand's row is the contraction coordinate. -/
theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

/-- The right operand's column is the result's column. -/
theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction shape has one axis, of extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- The library's sum over the contraction indices, as the sum over `Fin K` of the products along row `a` of the left
    operand and column `b` of the right. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

/-- The kernel's matrix product into a zero accumulator, read at `(a, b)`. -/
theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

/-- The host's product read at `(a, b)`. -/
theorem dotGeneral_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    Host.dotGeneral D prec l r (ix2 a b) = ∑ k : Fin K, l (ix2 a k) * r (ix2 k b) := by
  show FloatOps.dotGeneral D prec .single l r (ix2 a b) = _
  rw [Ideal.dotGeneral_apply]
  exact sum_plain D hlc hrc hln hrn hlb hrb l r a b

end Cert.LibDot

end
-- ==== Proof.LibColumn.lean ====
/-
  Two layout readings for a vector used as a COLUMN: a length-`a` vector cast to shape `[a, 1]`, and an `[a, 1]`
  column broadcast along a second axis to `[a, b]`. Both read, at `(i, ·)`, the vector's entry `i`: the cast
  because row-major position `i · 1 + 0` is `i`, the broadcast because the unit axis is pinned at `0` and the
  long axis is carried over.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- A length-`a` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Together: a vector laid along the rows of an `[a, b]` array reads, at `(p, c)`, the vector at `p`. -/
theorem column_of_vector_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Cert.LibColumn

end
-- ==== Proof.Reg0.lean ====
/-
  The first call, read as a whole array: a row-blocked product with a bias.

  The call walks fifty blocks of 2000 rows. At each block it multiplies the block's rows by the whole (already
  transposed) weight matrix and adds the bias row, so the entry at row `a`, column `q` of the block is
  `(∑ k, x (2000 t + a, k) · Wt (k, q)) + B (0, q)`. The fifty blocks are the restrictions of one function of the
  whole arrays, and they cover every row once, so after the last block the result array is that function.
-/
import proofs.«431383_j21732534518206_2_alg».proof.Proof.Gen.KernelIdeal.Frame
import proofs.«431383_j21732534518206_2_alg».proof.Proof.Spec
import proofs.«431383_j21732534518206_2_alg».proof.Proof.LibDot
import proofs.«431383_j21732534518206_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The bias row laid along every row of the block reads, at `(a, q)`, the row's entry `q`. -/
theorem bias_apply (v : (⟨2, ![1, 256]⟩ : Shape).Idx → EReal) (h : S1x256.Broadcasts S2000x256) (a : Fin 2000) (q : Fin 256) :
    broadcastTo S2000x256 v h (ix2 a q) = v (ix2 (0 : Fin 1) q) := by
  refine broadcastTo_apply v h (ix2 a q) (ix2 (0 : Fin 1) q) fun ax => ?_
  match ax with
  | ⟨0, _⟩ => rfl
  | ⟨1, _⟩ => rfl

/-- The body's arithmetic at one entry of the block: row `a` of the first operand against column `q` of the
    second, plus the bias row's entry `q`. -/
theorem pay (x0 : Vec Ideal S2000x128 .f32) (x1 : Vec Ideal S128x256 .bf16) (x2 : Vec Ideal S1x256 .f32)
    (a : Fin 2000) (q : Fin 256) :
    k0_pay1 (F := Ideal) x0 x1 x2 (ix2 a q)
      = (∑ k : Fin 128, x0 (ix2 a k) * x1 (ix2 k q)) + x2 (ix2 (0 : Fin 1) q) := by
  unfold k0_pay1
  rw [truncf_apply, addf_apply, bias_apply, shapeCast_self, shapeCast_self,
    Cert.LibDot.matmul_plain_apply _ rfl rfl rfl rfl rfl rfl]
  rfl

/-- The zero offsets on both axes, as a constant function. -/
theorem hz : (![0, 0] : Fin 2 → Nat) = fun _ => 0 := funext fun a => by fin_cases a <;> rfl

/-- The windows' index maps over the grid: point `t` stages row block `t` of the first operand and of the result,
    and the one block of the weights and of the bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first operand's block at point `t` is rows `2000 t … 2000 t + 1999` of the array. -/
theorem blk_x (c : Dev nD) (t : Fin cfg0.N) (a : Fin 2000) (k : Fin 128) (p : Fin 100000) (hp : p.val = t.val * 2000 + a.val) :
    (iblk0 V c 0 t : Vec Ideal S2000x128 .f32) (ix2 a k) = (V c main_arg0 : S100000x128.Idx → EReal) (ix2 p k) := by
  obtain ⟨e0, e1, -⟩ := idx_facts t
  unfold iblk0
  rw [View.read_apply]
  show V c main_arg0 _ = V c main_arg0 _
  congr 1
  funext ax
  apply Fin.ext
  match ax with
  | ⟨0, _⟩ => show win0_0.index t (0 : Fin 2) * 2000 + 1 * a.val = p.val; omega
  | ⟨1, _⟩ => show win0_0.index t (1 : Fin 2) * 128 + 1 * k.val = k.val; omega

/-- The weights' block at every point is the whole array. -/
theorem blk_w (c : Dev nD) (t : Fin cfg0.N) (k : Fin 128) (q : Fin 256) :
    (iblk0 V c 1 t : Vec Ideal S128x256 .bf16) (ix2 k q) = (V c main_v14 : S128x256.Idx → EReal) (ix2 k q) := by
  obtain ⟨-, -, e0, e1, -⟩ := idx_facts t
  unfold iblk0
  rw [View.read_apply]
  show V c main_v14 _ = V c main_v14 _
  congr 1
  funext ax
  apply Fin.ext
  match ax with
  | ⟨0, _⟩ => show win0_1.index t (0 : Fin 2) * 128 + 1 * k.val = k.val; omega
  | ⟨1, _⟩ => show win0_1.index t (1 : Fin 2) * 256 + 1 * q.val = q.val; omega

/-- The bias row's block at every point is the whole row. -/
theorem blk_b (c : Dev nD) (t : Fin cfg0.N) (u : Fin 1) (q : Fin 256) :
    (iblk0 V c 2 t : Vec Ideal S1x256 .f32) (ix2 u q) = (V c main_v15 : S1x256.Idx → EReal) (ix2 u q) := by
  obtain ⟨-, -, -, -, e0, e1, -⟩ := idx_facts t
  unfold iblk0
  rw [View.read_apply]
  show V c main_v15 _ = V c main_v15 _
  congr 1
  funext ax
  apply Fin.ext
  match ax with
  | ⟨0, _⟩ => show win0_2.index t (0 : Fin 2) * 1 + 1 * u.val = u.val; omega
  | ⟨1, _⟩ => show win0_2.index t (1 : Fin 2) * 256 + 1 * q.val = q.val; omega

/-- What point `t` computes at `(a, q)` of its block is the closed formula at row `2000 t + a`, column `q`. -/
theorem entry (c : Dev nD) (t : Fin cfg0.N) (a : Fin 2000) (q : Fin 256) (p : Fin 100000) (hp : p.val = t.val * 2000 + a.val) :
    k0_pay1 (F := Ideal) (iblk0 V c 0 t) (iblk0 V c 1 t) (iblk0 V c 2 t) (ix2 a q)
      = Cert.Spec.linK (V c main_arg0) (V c main_v14) (V c main_v15) p q := by
  refine (pay (iblk0 V c 0 t) (iblk0 V c 1 t) (iblk0 V c 2 t) a q).trans ?_
  unfold Cert.Spec.linK
  congr 1
  · refine Finset.sum_congr rfl fun k _ => ?_
    rw [blk_x V c t a k p hp, blk_w V c t k q]
  · exact blk_b V c t 0 q

/-- The whole result array as one function of the three input arrays. -/
abbrev G (c : Dev nD) : S100000x256.Idx → EReal := fun i =>
  Cert.Spec.linK (V c main_arg0) (V c main_v14) (V c main_v15) ⟨(i 0).val, idx2_lt0 i⟩ ⟨(i 1).val, idx2_lt1 i⟩

/-- The same at an index `j` of the block and the index `i` of the array it lands on. -/
theorem entry_at (c : Dev nD) (t : Fin cfg0.N) (j : S2000x256.Idx) (i : S100000x256.Idx)
    (h0 : (i 0).val = t.val * 2000 + (j 0).val) (h1 : (i 1).val = (j 1).val) :
    k0_pay1 (F := Ideal) (iblk0 V c 0 t) (iblk0 V c 1 t) (iblk0 V c 2 t) j = G V c i := by
  obtain ⟨a, q, rfl⟩ : ∃ (a : Fin 2000) (q : Fin 256), j = ix2 a q := ⟨j 0, j 1, eq_ix2 j⟩
  have hq : (⟨(i 1).val, idx2_lt1 i⟩ : Fin 256) = q := Fin.ext h1
  show _ = Cert.Spec.linK (V c main_arg0) (V c main_v14) (V c main_v15) ⟨(i 0).val, idx2_lt0 i⟩ ⟨(i 1).val, idx2_lt1 i⟩
  rw [hq]
  exact entry V c t a q ⟨(i 0).val, idx2_lt0 i⟩ h0

/-- What point `t` writes back is block `t` of that function. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x256) hz, View.ld_unit_zero (S := S1x256) hz]
  obtain ⟨-, -, -, -, -, -, e0, e1⟩ := idx_facts t
  funext j
  rw [View.read_apply]
  refine entry_at V c t (win0_3.xinj (grid0.coords t) j) (((cfg0.win 3).blk t).view.emb j) ?_ ?_
  · show win0_3.index t (0 : Fin 2) * 2000 + 1 * (j 0).val = t.val * 2000 + (j 0).val; omega
  · show win0_3.index t (1 : Fin 2) * 256 + 1 * (j 1).val = (j 1).val; omega

/-- An index of the array is in point `t`'s block iff each coordinate is in the block's range on its axis. -/
theorem mem_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v16).slice (win0_3.rect t)).set ↔ _
  rw [View.set_slice_whole, Rect.mem_set_unit]
  exact Iff.rfl

/-- Every index is in some point's block: row `r` is in the block of point `r / 2000`. -/
theorem cover (i : S100000x256.Idx) : ∃ t : Fin cfg0.N, (cfg0.win 3).flush t = true ∧ i ∈ ((cfg0.win 3).blk t).view.set := by
  have hi0 : (i 0).val < 100000 := (i 0).isLt
  have hi1 : (i 1).val < 256 := (i 1).isLt
  have ht : (i 0).val / 2000 < 50 := by omega
  obtain ⟨-, -, -, -, -, -, e0, e1⟩ := idx_facts ⟨(i 0).val / 2000, ht⟩
  have e0' : win0_3.index ⟨(i 0).val / 2000, ht⟩ (0 : Fin 2) = (i 0).val / 2000 := e0
  refine ⟨⟨(i 0).val / 2000, ht⟩, flush0_3 _, ?_⟩
  rw [mem_blk]
  intro a
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; omega
  | ⟨1, _⟩ => show win0_3.index ⟨(i 0).val / 2000, ht⟩ (1 : Fin 2) * 256 ≤ (i 1).val ∧ (i 1).val < win0_3.index ⟨(i 0).val / 2000, ht⟩ (1 : Fin 2) * 256 + 256; omega

/-- The array after all fifty points have written back is that function. -/
theorem final (c : Dev nD) : (dat0 (F := Ideal) V c).arrAt 3 cfg0.N = G V c :=
  (dat0 (F := Ideal) V c).arrAt_eq_of_cover 3 (G V c) (fun t _ => flushed_eq V c t) cover

/-- The first call's result array: every row of `x` against the transposed weights, plus the bias row. -/
theorem value (c : Dev nD) (p : Fin 100000) (q : Fin 256) :
    ((dat0 (F := Ideal) V c).arrAt 3 cfg0.N : S100000x256.Idx → EReal) (ix2 p q)
      = Cert.Spec.linK (V c main_arg0) (V c main_v14) (V c main_v15) p q := by
  rw [final V c]

end Cert.KernelIdeal.Reg0

end
-- ==== Proof.Reg1.lean ====
/-
  An aggregation layer's call, read as a whole array.

  The call walks fifty blocks of 2000 rows. At each block it adds the neighbour sums and the node features, scales every
  row by that row's factor, multiplies the result by one weight matrix and the features themselves by another, adds
  the two products and the bias row, and clips below at zero. Every entry depends only on its own row of the blocked
  arrays, so the fifty blocks are the restrictions of one function of the whole arrays; they cover every row once, and
  after the last block the result array is that function.
-/
import proofs.«431383_j21732534518206_2_alg».proof.Proof.Gen.KernelIdeal.Frame
import proofs.«431383_j21732534518206_2_alg».proof.Proof.Spec
import proofs.«431383_j21732534518206_2_alg».proof.Proof.LibDot
import proofs.«431383_j21732534518206_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at an index of its block -/

/-- The body's result at row `a`, column `q` of its block: the scaled sum of the two feature blocks through the first
    weight matrix, the node features through the second, the bias row, clipped below at zero. -/
theorem pay (x0 : Vec Ideal S2000x256 .f32) (x1 : Vec Ideal S2000x256 .bf16) (x2 : Vec Ideal S2000x1 .f32)
    (x3 : Vec Ideal S256x256 .bf16) (x4 : Vec Ideal S256x256 .bf16) (x5 : Vec Ideal S1x256 .f32) (a : Fin 2000) (q : Fin 256) :
    k1_pay1 (F := Ideal) x0 x1 x2 x3 x4 x5 (ix2 a q)
      = max (((∑ k : Fin 256, ((x0 (ix2 a k) + x1 (ix2 a k)) * x2 (ix2 a (0 : Fin 1))) * x3 (ix2 k q))
          + ∑ k : Fin 256, x1 (ix2 a k) * x4 (ix2 k q)) + x5 (ix2 (0 : Fin 1) q)) 0 := by
  unfold k1_pay1
  rw [truncf_apply, maximumf_apply, broadcast_apply, addf_apply, addf_apply]
  rw [Cert.LibDot.matmul_plain_apply dot_S2000x256_S256x256_S2000x256_1_0_0_1_n_n rfl rfl rfl rfl rfl rfl,
    Cert.LibDot.matmul_plain_apply dot_S2000x256_S256x256_S2000x256_1_0_0_1_n_n rfl rfl rfl rfl rfl rfl]
  rw [broadcastTo_1b_ab_apply]
  simp only [shapeCast_self, truncf_apply, extf_apply, mulf_apply, addf_apply, Cert.LibColumn.broadcastTo_a1_ab_apply]
  rw [Ideal.ofBits_def, Ideal.ofBits_zero_f32]

/-! ## Where each window's block sits in its array -/

theorem hz : (![0, 0] : Fin 2 → Nat) = fun _ => 0 := funext fun a => by fin_cases a <;> rfl

/-- The block index of every row-blocked window at point `t` is `(t, 0)`; the three whole-array windows stay at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 50 := lt_of_lt_of_eq t.isLt N_1

/-- Row `a` of point `t`'s block is row `t · 2000 + a` of the array. -/
def row (t : Fin cfg1.N) (a : Fin 2000) : Fin 100000 := ⟨t.val * 2000 + a.val, by have := t_lt t; have := a.isLt; omega⟩

theorem blk0 (c : Dev nD) (t : Fin cfg1.N) (a : Fin 2000) (k : Fin 256) :
    iblk1 (F := Ideal) V c 0 t (ix2 a k) = V c main_v27 (ix2 (row t a) k) := by
  obtain ⟨e00, e01, -⟩ := idx_facts t
  show V c main_v27 (((cfg1.win 0).blk t).view.emb (ix2 a k)) = _
  refine congrArg _ (funext fun x => Fin.ext ?_)
  match x with
  | ⟨0, _⟩ => show win1_0.index t (0 : Fin 2) * 2000 + 1 * a.val = t.val * 2000 + a.val; omega
  | ⟨1, _⟩ => show win1_0.index t (1 : Fin 2) * 256 + 1 * k.val = k.val; omega

theorem blk1 (c : Dev nD) (t : Fin cfg1.N) (a : Fin 2000) (k : Fin 256) :
    iblk1 (F := Ideal) V c 1 t (ix2 a k) = V c main_v16 (ix2 (row t a) k) := by
  obtain ⟨-, -, e10, e11, -⟩ := idx_facts t
  show V c main_v16 (((cfg1.win 1).blk t).view.emb (ix2 a k)) = _
  refine congrArg _ (funext fun x => Fin.ext ?_)
  match x with
  | ⟨0, _⟩ => show win1_1.index t (0 : Fin 2) * 2000 + 1 * a.val = t.val * 2000 + a.val; omega
  | ⟨1, _⟩ => show win1_1.index t (1 : Fin 2) * 256 + 1 * k.val = k.val; omega

theorem blk2 (c : Dev nD) (t : Fin cfg1.N) (a : Fin 2000) (u : Fin 1) :
    iblk1 (F := Ideal) V c 2 t (ix2 a u) = V c main_v12 (ix2 (row t a) u) := by
  obtain ⟨-, -, -, -, e20, e21, -⟩ := idx_facts t
  show V c main_v12 (((cfg1.win 2).blk t).view.emb (ix2 a u)) = _
  refine congrArg _ (funext fun x => Fin.ext ?_)
  match x with
  | ⟨0, _⟩ => show win1_2.index t (0 : Fin 2) * 2000 + 1 * a.val = t.val * 2000 + a.val; omega
  | ⟨1, _⟩ => show win1_2.index t (1 : Fin 2) * 1 + 1 * u.val = u.val; omega

theorem blk3 (c : Dev nD) (t : Fin cfg1.N) (k : Fin 256) (q : Fin 256) :
    iblk1 (F := Ideal) V c 3 t (ix2 k q) = V c main_v30 (ix2 k q) := by
  obtain ⟨-, -, -, -, -, -, e30, e31, -⟩ := idx_facts t
  show V c main_v30 (((cfg1.win 3).blk t).view.emb (ix2 k q)) = _
  refine congrArg _ (funext fun x => Fin.ext ?_)
  match x with
  | ⟨0, _⟩ => show win1_3.index t (0 : Fin 2) * 256 + 1 * k.val = k.val; omega
  | ⟨1, _⟩ => show win1_3.index t (1 : Fin 2) * 256 + 1 * q.val = q.val; omega

theorem blk4 (c : Dev nD) (t : Fin cfg1.N) (k : Fin 256) (q : Fin 256) :
    iblk1 (F := Ideal) V c 4 t (ix2 k q) = V c main_v31 (ix2 k q) := by
  obtain ⟨-, -, -, -, -, -, -, -, e40, e41, -⟩ := idx_facts t
  show V c main_v31 (((cfg1.win 4).blk t).view.emb (ix2 k q)) = _
  refine congrArg _ (funext fun x => Fin.ext ?_)
  match x with
  | ⟨0, _⟩ => show win1_4.index t (0 : Fin 2) * 256 + 1 * k.val = k.val; omega
  | ⟨1, _⟩ => show win1_4.index t (1 : Fin 2) * 256 + 1 * q.val = q.val; omega

theorem blk5 (c : Dev nD) (t : Fin cfg1.N) (u : Fin 1) (q : Fin 256) :
    iblk1 (F := Ideal) V c 5 t (ix2 u q) = V c main_v32 (ix2 u q) := by
  obtain ⟨-, -, -, -, -, -, -, -, -, -, e50, e51, -⟩ := idx_facts t
  show V c main_v32 (((cfg1.win 5).blk t).view.emb (ix2 u q)) = _
  refine congrArg _ (funext fun x => Fin.ext ?_)
  match x with
  | ⟨0, _⟩ => show win1_5.index t (0 : Fin 2) * 1 + 1 * u.val = u.val; omega
  | ⟨1, _⟩ => show win1_5.index t (1 : Fin 2) * 256 + 1 * q.val = q.val; omega

theorem blk6 (t : Fin cfg1.N) (a : Fin 2000) (q : Fin 256) :
    ((cfg1.win 6).blk t).view.emb (ix2 a q) = (ix2 (row t a) q : S100000x256.Idx) := by
  obtain ⟨-, -, -, -, -, -, -, -, -, -, -, -, e60, e61⟩ := idx_facts t
  refine funext fun x => Fin.ext ?_
  match x with
  | ⟨0, _⟩ => show win1_6.index t (0 : Fin 2) * 2000 + 1 * a.val = t.val * 2000 + a.val; omega
  | ⟨1, _⟩ => show win1_6.index t (1 : Fin 2) * 256 + 1 * q.val = q.val; omega

/-! ## From the blocks to the array -/

/-- The whole result array as one function of the call's input arrays. -/
def G (c : Dev nD) : S100000x256.Idx → EReal := fun i =>
  Cert.Spec.sageK (V c main_v27) (V c main_v16) (V c main_v12) (V c main_v30) (V c main_v31) (V c main_v32) (i 0) (i 1)

/-- What point `t` writes back is block `t` of that function. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz,
    View.ld_unit_zero (S := S256x256) hz, View.ld_unit_zero (S := S1x256) hz]
  funext j
  obtain ⟨a, q, rfl⟩ : ∃ (a : Fin 2000) (q : Fin 256), j = ix2 a q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 a q)
    = G V c (((cfg1.win 6).blk t).view.emb (ix2 a q))
  rw [blk6, pay]
  unfold G Cert.Spec.sageK
  simp only [blk0, blk1, blk2, blk3, blk4, blk5]

theorem mem_blk (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v33).slice (win1_6.rect t)).set ↔ _
  rw [View.set_slice_whole, Rect.mem_set_unit]
  exact Iff.rfl

/-- Row `r` lies in the block of point `r / 2000`. -/
theorem cover (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have hN : (i 0).val / 2000 < cfg1.N := lt_of_lt_of_eq (by omega : (i 0).val / 2000 < 50) N_1.symm
  refine ⟨⟨(i 0).val / 2000, hN⟩, flush1_6 _, ?_⟩
  obtain ⟨-, -, -, -, -, -, -, -, -, -, -, -, e60, e61⟩ := idx_facts ⟨(i 0).val / 2000, hN⟩
  rw [mem_blk]
  intro a
  match a with
  | ⟨0, _⟩ =>
    show win1_6.index ⟨(i 0).val / 2000, hN⟩ (0 : Fin 2) * 2000 ≤ (i 0).val ∧ (i 0).val < win1_6.index ⟨(i 0).val / 2000, hN⟩ (0 : Fin 2) * 2000 + 2000
    rw [e60]; show (i 0).val / 2000 * 2000 ≤ (i 0).val ∧ (i 0).val < (i 0).val / 2000 * 2000 + 2000; omega
  | ⟨1, _⟩ =>
    show win1_6.index ⟨(i 0).val / 2000, hN⟩ (1 : Fin 2) * 256 ≤ (i 1).val ∧ (i 1).val < win1_6.index ⟨(i 0).val / 2000, hN⟩ (1 : Fin 2) * 256 + 256
    rw [e61]; omega

/-- After the last point the result array is that function. -/
theorem final (c : Dev nD) : (dat1 (F := Ideal) V c).arrAt 6 cfg1.N = G V c :=
  (dat1 (F := Ideal) V c).arrAt_eq_of_cover 6 (G V c) (fun t _ => flushed_eq V c t) cover

/-- The second call's result array: one aggregation layer over the neighbour sums and the node features. -/
theorem value (c : Dev nD) (p : Fin 100000) (q : Fin 256) :
    ((dat1 (F := Ideal) V c).arrAt 6 cfg1.N : S100000x256.Idx → EReal) (ix2 p q)
      = Cert.Spec.sageK (V c main_v27) (V c main_v16) (V c main_v12) (V c main_v30) (V c main_v31) (V c main_v32) p q := by
  rw [final V c]
  rfl

end Cert.KernelIdeal.Reg1

end
-- ==== Proof.Reg2.lean ====
/-
  An aggregation layer's call, read as a whole array.

  The call walks fifty blocks of 2000 rows. At each block it adds the neighbour sums and the node features, scales every
  row by that row's factor, multiplies the result by one weight matrix and the features themselves by another, adds
  the two products and the bias row, and clips below at zero. Every entry depends only on its own row of the blocked
  arrays, so the fifty blocks are the restrictions of one function of the whole arrays; they cover every row once, and
  after the last block the result array is that function.
-/
import proofs.«431383_j21732534518206_2_alg».proof.Proof.Gen.KernelIdeal.Frame
import proofs.«431383_j21732534518206_2_alg».proof.Proof.Spec
import proofs.«431383_j21732534518206_2_alg».proof.Proof.LibDot
import proofs.«431383_j21732534518206_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at an index of its block -/

/-- The body's result at row `a`, column `q` of its block: the scaled sum of the two feature blocks through the first
    weight matrix, the node features through the second, the bias row, clipped below at zero. -/
theorem pay (x0 : Vec Ideal S2000x256 .f32) (x1 : Vec Ideal S2000x256 .bf16) (x2 : Vec Ideal S2000x1 .f32)
    (x3 : Vec Ideal S256x256 .bf16) (x4 : Vec Ideal S256x256 .bf16) (x5 : Vec Ideal S1x256 .f32) (a : Fin 2000) (q : Fin 256) :
    k2_pay1 (F := Ideal) x0 x1 x2 x3 x4 x5 (ix2 a q)
      = max (((∑ k : Fin 256, ((x0 (ix2 a k) + x1 (ix2 a k)) * x2 (ix2 a (0 : Fin 1))) * x3 (ix2 k q))
          + ∑ k : Fin 256, x1 (ix2 a k) * x4 (ix2 k q)) + x5 (ix2 (0 : Fin 1) q)) 0 := by
  unfold k2_pay1
  rw [truncf_apply, maximumf_apply, broadcast_apply, addf_apply, addf_apply]
  rw [Cert.LibDot.matmul_plain_apply dot_S2000x256_S256x256_S2000x256_1_0_0_1_n_n rfl rfl rfl rfl rfl rfl,
    Cert.LibDot.matmul_plain_apply dot_S2000x256_S256x256_S2000x256_1_0_0_1_n_n rfl rfl rfl rfl rfl rfl]
  rw [broadcastTo_1b_ab_apply]
  simp only [shapeCast_self, truncf_apply, extf_apply, mulf_apply, addf_apply, Cert.LibColumn.broadcastTo_a1_ab_apply]
  rw [Ideal.ofBits_def, Ideal.ofBits_zero_f32]

/-! ## Where each window's block sits in its array -/

theorem hz : (![0, 0] : Fin 2 → Nat) = fun _ => 0 := funext fun a => by fin_cases a <;> rfl

/-- The block index of every row-blocked window at point `t` is `(t, 0)`; the three whole-array windows stay at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 50 := lt_of_lt_of_eq t.isLt N_2

/-- Row `a` of point `t`'s block is row `t · 2000 + a` of the array. -/
def row (t : Fin cfg2.N) (a : Fin 2000) : Fin 100000 := ⟨t.val * 2000 + a.val, by have := t_lt t; have := a.isLt; omega⟩

theorem blk0 (c : Dev nD) (t : Fin cfg2.N) (a : Fin 2000) (k : Fin 256) :
    iblk2 (F := Ideal) V c 0 t (ix2 a k) = V c main_v44 (ix2 (row t a) k) := by
  obtain ⟨e00, e01, -⟩ := idx_facts t
  show V c main_v44 (((cfg2.win 0).blk t).view.emb (ix2 a k)) = _
  refine congrArg _ (funext fun x => Fin.ext ?_)
  match x with
  | ⟨0, _⟩ => show win2_0.index t (0 : Fin 2) * 2000 + 1 * a.val = t.val * 2000 + a.val; omega
  | ⟨1, _⟩ => show win2_0.index t (1 : Fin 2) * 256 + 1 * k.val = k.val; omega

theorem blk1 (c : Dev nD) (t : Fin cfg2.N) (a : Fin 2000) (k : Fin 256) :
    iblk2 (F := Ideal) V c 1 t (ix2 a k) = V c main_v33 (ix2 (row t a) k) := by
  obtain ⟨-, -, e10, e11, -⟩ := idx_facts t
  show V c main_v33 (((cfg2.win 1).blk t).view.emb (ix2 a k)) = _
  refine congrArg _ (funext fun x => Fin.ext ?_)
  match x with
  | ⟨0, _⟩ => show win2_1.index t (0 : Fin 2) * 2000 + 1 * a.val = t.val * 2000 + a.val; omega
  | ⟨1, _⟩ => show win2_1.index t (1 : Fin 2) * 256 + 1 * k.val = k.val; omega

theorem blk2 (c : Dev nD) (t : Fin cfg2.N) (a : Fin 2000) (u : Fin 1) :
    iblk2 (F := Ideal) V c 2 t (ix2 a u) = V c main_v12 (ix2 (row t a) u) := by
  obtain ⟨-, -, -, -, e20, e21, -⟩ := idx_facts t
  show V c main_v12 (((cfg2.win 2).blk t).view.emb (ix2 a u)) = _
  refine congrArg _ (funext fun x => Fin.ext ?_)
  match x with
  | ⟨0, _⟩ => show win2_2.index t (0 : Fin 2) * 2000 + 1 * a.val = t.val * 2000 + a.val; omega
  | ⟨1, _⟩ => show win2_2.index t (1 : Fin 2) * 1 + 1 * u.val = u.val; omega

theorem blk3 (c : Dev nD) (t : Fin cfg2.N) (k : Fin 256) (q : Fin 256) :
    iblk2 (F := Ideal) V c 3 t (ix2 k q) = V c main_v47 (ix2 k q) := by
  obtain ⟨-, -, -, -, -, -, e30, e31, -⟩ := idx_facts t
  show V c main_v47 (((cfg2.win 3).blk t).view.emb (ix2 k q)) = _
  refine congrArg _ (funext fun x => Fin.ext ?_)
  match x with
  | ⟨0, _⟩ => show win2_3.index t (0 : Fin 2) * 256 + 1 * k.val = k.val; omega
  | ⟨1, _⟩ => show win2_3.index t (1 : Fin 2) * 256 + 1 * q.val = q.val; omega

theorem blk4 (c : Dev nD) (t : Fin cfg2.N) (k : Fin 256) (q : Fin 256) :
    iblk2 (F := Ideal) V c 4 t (ix2 k q) = V c main_v48 (ix2 k q) := by
  obtain ⟨-, -, -, -, -, -, -, -, e40, e41, -⟩ := idx_facts t
  show V c main_v48 (((cfg2.win 4).blk t).view.emb (ix2 k q)) = _
  refine congrArg _ (funext fun x => Fin.ext ?_)
  match x with
  | ⟨0, _⟩ => show win2_4.index t (0 : Fin 2) * 256 + 1 * k.val = k.val; omega
  | ⟨1, _⟩ => show win2_4.index t (1 : Fin 2) * 256 + 1 * q.val = q.val; omega

theorem blk5 (c : Dev nD) (t : Fin cfg2.N) (u : Fin 1) (q : Fin 256) :
    iblk2 (F := Ideal) V c 5 t (ix2 u q) = V c main_v49 (ix2 u q) := by
  obtain ⟨-, -, -, -, -, -, -, -, -, -, e50, e51, -⟩ := idx_facts t
  show V c main_v49 (((cfg2.win 5).blk t).view.emb (ix2 u q)) = _
  refine congrArg _ (funext fun x => Fin.ext ?_)
  match x with
  | ⟨0, _⟩ => show win2_5.index t (0 : Fin 2) * 1 + 1 * u.val = u.val; omega
  | ⟨1, _⟩ => show win2_5.index t (1 : Fin 2) * 256 + 1 * q.val = q.val; omega

theorem blk6 (t : Fin cfg2.N) (a : Fin 2000) (q : Fin 256) :
    ((cfg2.win 6).blk t).view.emb (ix2 a q) = (ix2 (row t a) q : S100000x256.Idx) := by
  obtain ⟨-, -, -, -, -, -, -, -, -, -, -, -, e60, e61⟩ := idx_facts t
  refine funext fun x => Fin.ext ?_
  match x with
  | ⟨0, _⟩ => show win2_6.index t (0 : Fin 2) * 2000 + 1 * a.val = t.val * 2000 + a.val; omega
  | ⟨1, _⟩ => show win2_6.index t (1 : Fin 2) * 256 + 1 * q.val = q.val; omega

/-! ## From the blocks to the array -/

/-- The whole result array as one function of the call's input arrays. -/
def G (c : Dev nD) : S100000x256.Idx → EReal := fun i =>
  Cert.Spec.sageK (V c main_v44) (V c main_v33) (V c main_v12) (V c main_v47) (V c main_v48) (V c main_v49) (i 0) (i 1)

/-- What point `t` writes back is block `t` of that function. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x256) hz, View.ld_unit_zero (S := S2000x1) hz,
    View.ld_unit_zero (S := S256x256) hz, View.ld_unit_zero (S := S1x256) hz]
  funext j
  obtain ⟨a, q, rfl⟩ : ∃ (a : Fin 2000) (q : Fin 256), j = ix2 a q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 a q)
    = G V c (((cfg2.win 6).blk t).view.emb (ix2 a q))
  rw [blk6, pay]
  unfold G Cert.Spec.sageK
  simp only [blk0, blk1, blk2, blk3, blk4, blk5]

theorem mem_blk (t : Fin cfg2.N) (i : S100000x256.Idx) :
    i ∈ ((cfg2.win 6).blk t).view.set ↔ ∀ a : Fin 2, win2_6.index t a * S2000x256.size a ≤ (i a).val ∧ (i a).val < win2_6.index t a * S2000x256.size a + S2000x256.size a := by
  show i ∈ ((View.whole main_v50).slice (win2_6.rect t)).set ↔ _
  rw [View.set_slice_whole, Rect.mem_set_unit]
  exact Iff.rfl

/-- Row `r` lies in the block of point `r / 2000`. -/
theorem cover (i : S100000x256.Idx) :
    ∃ t : Fin cfg2.N, (cfg2.win 6).flush t = true ∧ i ∈ ((cfg2.win 6).blk t).view.set := by
  have hi0 : (i 0).val < 100000 := (i 0).isLt
  have hi1 : (i 1).val < 256 := (i 1).isLt
  have hN : (i 0).val / 2000 < cfg2.N := lt_of_lt_of_eq (by omega : (i 0).val / 2000 < 50) N_2.symm
  refine ⟨⟨(i 0).val / 2000, hN⟩, flush2_6 _, ?_⟩
  obtain ⟨-, -, -, -, -, -, -, -, -, -, -, -, e60, e61⟩ := idx_facts ⟨(i 0).val / 2000, hN⟩
  rw [mem_blk]
  intro a
  match a with
  | ⟨0, _⟩ =>
    show win2_6.index ⟨(i 0).val / 2000, hN⟩ (0 : Fin 2) * 2000 ≤ (i 0).val ∧ (i 0).val < win2_6.index ⟨(i 0).val / 2000, hN⟩ (0 : Fin 2) * 2000 + 2000
    rw [e60]; show (i 0).val / 2000 * 2000 ≤ (i 0).val ∧ (i 0).val < (i 0).val / 2000 * 2000 + 2000; omega
  | ⟨1, _⟩ =>
    show win2_6.index ⟨(i 0).val / 2000, hN⟩ (1 : Fin 2) * 256 ≤ (i 1).val ∧ (i 1).val < win2_6.index ⟨(i 0).val / 2000, hN⟩ (1 : Fin 2) * 256 + 256
    rw [e61]; omega

/-- After the last point the result array is that function. -/
theorem final (c : Dev nD) : (dat2 (F := Ideal) V c).arrAt 6 cfg2.N = G V c :=
  (dat2 (F := Ideal) V c).arrAt_eq_of_cover 6 (G V c) (fun t _ => flushed_eq V c t) cover

/-- The third call's result array: the second aggregation layer. -/
theorem value (c : Dev nD) (p : Fin 100000) (q : Fin 256) :
    ((dat2 (F := Ideal) V c).arrAt 6 cfg2.N : S100000x256.Idx → EReal) (ix2 p q)
      = Cert.Spec.sageK (V c main_v44) (V c main_v33) (V c main_v12) (V c main_v47) (V c main_v48) (V c main_v49) p q := by
  rw [final V c]
  rfl

end Cert.KernelIdeal.Reg2

end
-- ==== Proof.Reg3.lean ====
/-
  The predictor's call, read as a whole array.

  The call walks sixteen blocks of 1024 rows. At each block it lays the two feature blocks, their product and the
  absolute value of their difference side by side, multiplies by the first weight matrix, adds the first bias row and
  clips below at zero, then multiplies by the second (padded) weight matrix and adds the second (padded) bias row. Every
  entry depends only on its own row of the two feature arrays, so the sixteen blocks are the restrictions of one
  function of the whole arrays; they cover every row once, and after the last block the result array is that function.
-/
import proofs.«431383_j21732534518206_2_alg».proof.Proof.Gen.KernelIdeal.Frame
import proofs.«431383_j21732534518206_2_alg».proof.Proof.Spec
import proofs.«431383_j21732534518206_2_alg».proof.Proof.LibDot
import proofs.«431383_j21732534518206_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at a row and a column -/

/-- Four blocks of 256 columns laid side by side, read at row `a` and column `k`: the block whose span holds `k`,
    at `k` less the columns before it. -/
theorem cat4_apply {α : Type} (y0 y1 y2 y3 : S1024x256.Idx → α)
    (h : Shape.Concatenates [S1024x256, S1024x256, S1024x256, S1024x256] S1024x1024 1) (a : Fin 1024) (k : Fin 1024) :
    concatenate S1024x1024 1 [⟨S1024x256, y0⟩, ⟨S1024x256, y1⟩, ⟨S1024x256, y2⟩, ⟨S1024x256, y3⟩] h (ix2 a k)
      = if h0 : k.val < 256 then y0 (ix2 a ⟨k.val, h0⟩)
        else if h1 : k.val < 512 then y1 (ix2 a ⟨k.val - 256, by omega⟩)
        else if h2 : k.val < 768 then y2 (ix2 a ⟨k.val - 512, by omega⟩)
        else y3 (ix2 a ⟨k.val - 768, by omega⟩) := by
  have hk := k.isLt
  have off : ∀ (n : Nat) (hn : n < 256) (b : Fin S1024x256.rank), b.cast (rfl : S1024x256.rank = S1024x1024.rank) ≠ (1 : Fin S1024x1024.rank) →
      ((ix2 a (⟨n, hn⟩ : Fin 256) : S1024x256.Idx) b).val = ((ix2 a k : S1024x1024.Idx) (b.cast rfl)).val := fun n hn b =>
    match b with
    | ⟨0, _⟩ => fun _ => rfl
    | ⟨1, _⟩ => fun hb => (hb (Fin.ext rfl)).elim
  split
  · next h0 =>
    exact concatenate_apply_piece 1 [⟨S1024x256, y0⟩, ⟨S1024x256, y1⟩, ⟨S1024x256, y2⟩, ⟨S1024x256, y3⟩] h (ix2 a k) 0 (by simp) S1024x256 y0 rfl rfl 0 rfl (ix2 a ⟨k.val, h0⟩) (off _ _)
      (by show 0 + k.val = k.val; omega)
  · next h0 =>
    split
    · next h1 =>
      exact concatenate_apply_piece 1 [⟨S1024x256, y0⟩, ⟨S1024x256, y1⟩, ⟨S1024x256, y2⟩, ⟨S1024x256, y3⟩] h (ix2 a k) 1 (by simp) S1024x256 y1 rfl rfl 256 rfl (ix2 a ⟨k.val - 256, by omega⟩) (off _ _)
        (by show 256 + (k.val - 256) = k.val; omega)
    · next h1 =>
      split
      · next h2 =>
        exact concatenate_apply_piece 1 [⟨S1024x256, y0⟩, ⟨S1024x256, y1⟩, ⟨S1024x256, y2⟩, ⟨S1024x256, y3⟩] h (ix2 a k) 2 (by simp) S1024x256 y2 rfl rfl 512 rfl (ix2 a ⟨k.val - 512, by omega⟩) (off _ _)
          (by show 512 + (k.val - 512) = k.val; omega)
      · next h2 =>
        exact concatenate_apply_piece 1 [⟨S1024x256, y0⟩, ⟨S1024x256, y1⟩, ⟨S1024x256, y2⟩, ⟨S1024x256, y3⟩] h (ix2 a k) 3 (by simp) S1024x256 y3 rfl rfl 768 rfl (ix2 a ⟨k.val - 768, by omega⟩) (off _ _)
          (by show 768 + (k.val - 768) = k.val; omega)

/-- The absolute value read at an index: the larger of the entry and its negation. -/
theorem absf_apply {s : Shape} {φ : FTy} (x : FVec Ideal s φ) (i : s.Idx) : absf x i = max (x i) (-(x i)) := rfl

/-- The first product: a row of the 1024 features against a column of the `[1024, 256]` weights. -/
theorem mm_hidden (l : FVec Ideal S1024x1024 .bf16) (r : FVec Ideal S1024x256 .bf16) (a : Fin 1024) (b : Fin 256) :
    matmul dot_S1024x1024_S1024x256_S1024x256_1_0_0_1_n_n none l r (constant S1024x256 .f32 0x00000000#32) (ix2 a b)
      = ∑ k : Fin 1024, l (ix2 a k) * r (ix2 k b) :=
  Cert.LibDot.matmul_plain_apply _ rfl rfl rfl rfl rfl rfl none l r a b

/-- The second product: a row of the 256 hidden units against a column of the `[256, 128]` weights. -/
theorem mm_out (l : FVec Ideal S1024x256 .bf16) (r : FVec Ideal S256x128 .bf16) (a : Fin 1024) (b : Fin 128) :
    matmul dot_S1024x256_S256x128_S1024x128_1_0_0_1_n_n none l r (constant S1024x128 .f32 0x00000000#32) (ix2 a b)
      = ∑ k : Fin 256, l (ix2 a k) * r (ix2 k b) :=
  Cert.LibDot.matmul_plain_apply _ rfl rfl rfl rfl rfl rfl none l r a b

/-- The body's payload at row `a`, column `q` of its block: the two-layer predictor over the blocks it loaded. -/
theorem pay (x0 x1 x2 : Vec Ideal S1024x256 .bf16) (x3 : Vec Ideal S1x256 .f32) (x4 : Vec Ideal S256x128 .bf16)
    (x5 : Vec Ideal S1x128 .f32) (a : Fin 1024) (q : Fin 128) :
    k3_pay1 (F := Ideal) x0 x1 x2 x3 x4 x5 (ix2 a q) = Cert.Spec.linkK x0 x1 x2 x3 x4 x5 a q := by
  unfold k3_pay1 Cert.Spec.linkK Cert.Spec.cat4At
  simp only [addf_apply, mm_out, mm_hidden, truncf_apply, maximumf_apply, broadcast_apply, broadcastTo_1b_ab_apply, shapeCast_self,
    cat4_apply, extf_apply, mulf_apply, subf_apply, absf_apply, Ideal.ofBits_def, Ideal.ofBits_zero_f32]

/-! ## From the blocks to the array -/

/-- The predictor at a row reads only that row of the two feature arrays. -/
theorem linkK_row {M M' N : ℕ} (s d : Cert.Spec.Mat M 256) (s' d' : Cert.Spec.Mat M' 256) (W1t W1t' : Cert.Spec.Mat 1024 256)
    (B1 B1' : Cert.Spec.Mat 1 256) (W2 W2' : Cert.Spec.Mat 256 N) (B2 B2' : Cert.Spec.Mat 1 N) (p : Fin M) (p' : Fin M') (q : Fin N)
    (hs : ∀ k : Fin 256, s (ix2 p k) = s' (ix2 p' k)) (hd : ∀ k : Fin 256, d (ix2 p k) = d' (ix2 p' k))
    (hW1 : W1t = W1t') (hB1 : B1 = B1') (hW2 : W2 = W2') (hB2 : B2 = B2') :
    Cert.Spec.linkK s d W1t B1 W2 B2 p q = Cert.Spec.linkK s' d' W1t' B1' W2' B2' p' q := by
  subst hW1 hB1 hW2 hB2
  have hc : ∀ k : Fin 1024, Cert.Spec.cat4At s d p k = Cert.Spec.cat4At s' d' p' k := fun k => by
    unfold Cert.Spec.cat4At
    simp only [hs, hd]
  unfold Cert.Spec.linkK
  simp only [hc]

theorem hz : (![0, 0] : Fin 2 → Nat) = fun _ => 0 := funext fun a => by fin_cases a <;> rfl

/-- The printed index maps over the grid: at point `t` the two feature windows and the result window sit at block row `t`,
    block column 0; the weights and the bias rows at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `a` of block `t` is row `1024 t + a` of the array. -/
def row (t : Fin cfg3.N) (a : Fin 1024) : Fin 16384 :=
  ⟨t.val * 1024 + a.val, by have h := t.isLt; have hN : cfg3.N = 16 := N_3; have := a.isLt; omega⟩

/-- The first feature window's block at point `t`, as rows of its array. -/
theorem blk_s (c : Dev nD) (t : Fin cfg3.N) (a : Fin 1024) (k : Fin 256) :
    (iblk3 V c 0 t : S1024x256.Idx → EReal) (ix2 a k) = (V c main_v57 : S16384x256.Idx → EReal) (ix2 (row t a) k) := by
  obtain ⟨e0, e1, -⟩ := idx_facts t
  unfold iblk3
  rw [View.read_apply]
  show (V c main_v57 : S16384x256.Idx → EReal) (((cfg3.win 0).blk t).view.emb (ix2 a k)) = _
  refine congrArg (V c main_v57 : S16384x256.Idx → EReal) ?_
  funext x; apply Fin.ext
  match x with
  | ⟨0, _⟩ => show win3_0.index t (0 : Fin 2) * 1024 + 1 * a.val = t.val * 1024 + a.val; rw [e0]; omega
  | ⟨1, _⟩ => show win3_0.index t (1 : Fin 2) * 256 + 1 * k.val = k.val; rw [e1]; omega

/-- The second feature window's block at point `t`, as rows of its array. -/
theorem blk_d (c : Dev nD) (t : Fin cfg3.N) (a : Fin 1024) (k : Fin 256) :
    (iblk3 V c 1 t : S1024x256.Idx → EReal) (ix2 a k) = (V c main_v64 : S16384x256.Idx → EReal) (ix2 (row t a) k) := by
  obtain ⟨-, -, e0, e1, -⟩ := idx_facts t
  unfold iblk3
  rw [View.read_apply]
  show (V c main_v64 : S16384x256.Idx → EReal) (((cfg3.win 1).blk t).view.emb (ix2 a k)) = _
  refine congrArg (V c main_v64 : S16384x256.Idx → EReal) ?_
  funext x; apply Fin.ext
  match x with
  | ⟨0, _⟩ => show win3_1.index t (0 : Fin 2) * 1024 + 1 * a.val = t.val * 1024 + a.val; rw [e0]; omega
  | ⟨1, _⟩ => show win3_1.index t (1 : Fin 2) * 256 + 1 * k.val = k.val; rw [e1]; omega

/-- The first layer's weights are staged whole. -/
theorem blk_W1 (c : Dev nD) (t : Fin cfg3.N) : (iblk3 V c 2 t : S1024x256.Idx → EReal) = (V c main_v66 : S1024x256.Idx → EReal) := by
  obtain ⟨-, -, -, -, e0, e1, -⟩ := idx_facts t
  funext j
  unfold iblk3
  rw [View.read_apply]
  show (V c main_v66 : S1024x256.Idx → EReal) (((cfg3.win 2).blk t).view.emb j) = _
  refine congrArg (V c main_v66 : S1024x256.Idx → EReal) ?_
  funext x; apply Fin.ext
  match x with
  | ⟨0, _⟩ => show win3_2.index t (0 : Fin 2) * 1024 + 1 * (j 0).val = (j 0).val; rw [e0]; omega
  | ⟨1, _⟩ => show win3_2.index t (1 : Fin 2) * 256 + 1 * (j 1).val = (j 1).val; rw [e1]; omega

/-- The first layer's bias row is staged whole. -/
theorem blk_B1 (c : Dev nD) (t : Fin cfg3.N) : (iblk3 V c 3 t : S1x256.Idx → EReal) = (V c main_v67 : S1x256.Idx → EReal) := by
  obtain ⟨-, -, -, -, -, -, e0, e1, -⟩ := idx_facts t
  funext j
  unfold iblk3
  rw [View.read_apply]
  show (V c main_v67 : S1x256.Idx → EReal) (((cfg3.win 3).blk t).view.emb j) = _
  refine congrArg (V c main_v67 : S1x256.Idx → EReal) ?_
  funext x; apply Fin.ext
  match x with
  | ⟨0, _⟩ => show win3_3.index t (0 : Fin 2) * 1 + 1 * (j 0).val = (j 0).val; rw [e0]; omega
  | ⟨1, _⟩ => show win3_3.index t (1 : Fin 2) * 256 + 1 * (j 1).val = (j 1).val; rw [e1]; omega

/-- The second layer's weights are staged whole. -/
theorem blk_W2 (c : Dev nD) (t : Fin cfg3.N) : (iblk3 V c 4 t : S256x128.Idx → EReal) = (V c main_v72 : S256x128.Idx → EReal) := by
  obtain ⟨-, -, -, -, -, -, -, -, e0, e1, -⟩ := idx_facts t
  funext j
  unfold iblk3
  rw [View.read_apply]
  show (V c main_v72 : S256x128.Idx → EReal) (((cfg3.win 4).blk t).view.emb j) = _
  refine congrArg (V c main_v72 : S256x128.Idx → EReal) ?_
  funext x; apply Fin.ext
  match x with
  | ⟨0, _⟩ => show win3_4.index t (0 : Fin 2) * 256 + 1 * (j 0).val = (j 0).val; rw [e0]; omega
  | ⟨1, _⟩ => show win3_4.index t (1 : Fin 2) * 128 + 1 * (j 1).val = (j 1).val; rw [e1]; omega

/-- The second layer's bias row is staged whole. -/
theorem blk_B2 (c : Dev nD) (t : Fin cfg3.N) : (iblk3 V c 5 t : S1x128.Idx → EReal) = (V c main_v78 : S1x128.Idx → EReal) := by
  obtain ⟨-, -, -, -, -, -, -, -, -, -, e0, e1, -⟩ := idx_facts t
  funext j
  unfold iblk3
  rw [View.read_apply]
  show (V c main_v78 : S1x128.Idx → EReal) (((cfg3.win 5).blk t).view.emb j) = _
  refine congrArg (V c main_v78 : S1x128.Idx → EReal) ?_
  funext x; apply Fin.ext
  match x with
  | ⟨0, _⟩ => show win3_5.index t (0 : Fin 2) * 1 + 1 * (j 0).val = (j 0).val; rw [e0]; omega
  | ⟨1, _⟩ => show win3_5.index t (1 : Fin 2) * 128 + 1 * (j 1).val = (j 1).val; rw [e1]; omega

/-- The result array as ONE function of the region's input arrays: the predictor at each row and column. -/
def G (c : Dev nD) : S16384x128.Idx → EReal := fun i =>
  Cert.Spec.linkK (V c main_v57) (V c main_v64) (V c main_v66) (V c main_v67) (V c main_v72) (V c main_v78) (i 0 : Fin 16384) (i 1 : Fin 128)

theorem G_apply (c : Dev nD) (p : Fin 16384) (q : Fin 128) :
    G V c (ix2 p q) = Cert.Spec.linkK (V c main_v57) (V c main_v64) (V c main_v66) (V c main_v67) (V c main_v72) (V c main_v78) p q := rfl

/-- Where the result block's element `(a, q)` at point `t` sits in the array. -/
theorem out_emb (t : Fin cfg3.N) (a : Fin 1024) (q : Fin 128) :
    (((cfg3.win 6).blk t).view.emb (ix2 a q) : S16384x128.Idx) = ix2 (row t a) q := by
  obtain ⟨-, -, -, -, -, -, -, -, -, -, -, -, e0, e1⟩ := idx_facts t
  funext x; apply Fin.ext
  match x with
  | ⟨0, _⟩ => show win3_6.index t (0 : Fin 2) * 1024 + 1 * a.val = t.val * 1024 + a.val; rw [e0]; omega
  | ⟨1, _⟩ => show win3_6.index t (1 : Fin 2) * 128 + 1 * q.val = q.val; rw [e1]; omega

/-- What point `t` writes back is block `t` of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S1024x256) hz, View.ld_unit_zero (S := S1x256) hz, View.ld_unit_zero (S := S256x128) hz,
    View.ld_unit_zero (S := S1x128) hz]
  funext j
  obtain ⟨a, q, rfl⟩ : ∃ (a : Fin 1024) (q : Fin 128), j = ix2 a q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 a q)
    = G V c (((cfg3.win 6).blk t).view.emb (ix2 a q))
  rw [out_emb t a q, G_apply]
  refine (pay _ _ _ _ _ _ a q).trans ?_
  exact linkK_row _ _ _ _ _ _ _ _ _ _ _ _ a (row t a) q (fun k => blk_s V c t a k) (fun k => blk_d V c t a k)
    (blk_W1 V c t) (blk_B1 V c t) (blk_W2 V c t) (blk_B2 V c t)

/-- An index of the array is in point `t`'s block iff each coordinate is in the block's range on its axis. -/
theorem mem_blk (t : Fin cfg3.N) (i : S16384x128.Idx) :
    i ∈ ((cfg3.win 6).blk t).view.set ↔ ∀ a : Fin 2, win3_6.index t a * S1024x128.size a ≤ (i a).val ∧ (i a).val < win3_6.index t a * S1024x128.size a + S1024x128.size a := by
  show i ∈ ((View.whole main_v79).slice (win3_6.rect t)).set ↔ _
  rw [View.set_slice_whole, Rect.mem_set_unit]
  exact Iff.rfl

/-- Every index of the array is in some point's block: row `r` is in block `r / 1024`. -/
theorem cover (i : S16384x128.Idx) : ∃ t : Fin cfg3.N, (cfg3.win 6).flush t = true ∧ i ∈ ((cfg3.win 6).blk t).view.set := by
  have hi0 : (i 0).val < 16384 := (i 0).isLt
  have hi1 : (i 1).val < 128 := (i 1).isLt
  have hN : cfg3.N = 16 := N_3
  have ht : (i 0).val / 1024 < cfg3.N := by rw [hN]; omega
  obtain ⟨-, -, -, -, -, -, -, -, -, -, -, -, e0, e1⟩ := idx_facts ⟨(i 0).val / 1024, ht⟩
  refine ⟨⟨(i 0).val / 1024, ht⟩, flush3_6 _, ?_⟩
  rw [mem_blk]
  intro a
  match a with
  | ⟨0, _⟩ =>
    show win3_6.index ⟨(i 0).val / 1024, ht⟩ (0 : Fin 2) * 1024 ≤ (i 0).val ∧ (i 0).val < win3_6.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win3_6.index ⟨(i 0).val / 1024, ht⟩ (1 : Fin 2) * 128 ≤ (i 1).val ∧ (i 1).val < win3_6.index ⟨(i 0).val / 1024, ht⟩ (1 : Fin 2) * 128 + 128
    rw [e1]; omega

/-- The result array after the last point is `G`. -/
theorem final (c : Dev nD) : (dat3 V c).arrAt 6 cfg3.N = G V c :=
  (dat3 V c).arrAt_eq_of_cover 6 (G V c) (fun t _ => flushed_eq V c t) cover

/-- The fourth call's result array: the two-layer predictor over each pair's four feature blocks. -/
theorem value (c : Dev nD) (p : Fin 16384) (q : Fin 128) :
    ((dat3 (F := Ideal) V c).arrAt 6 cfg3.N : S16384x128.Idx → EReal) (ix2 p q)
      = Cert.Spec.linkK (V c main_v57) (V c main_v64) (V c main_v66) (V c main_v67) (V c main_v72) (V c main_v78) p q := by
  rw [final V c]
  rfl

end Cert.KernelIdeal.Reg3

end
-- ==== Proof.BridgeLin.lean ====
/-
  The node embedding on the two sides: the kernel program's first call and the reference's embedding (a transpose,
  a product, the bias broadcast along the rows, a sum) are the same array.

  Both are, at row `p` and column `q`, `(∑ k, x (p,k) · W (q,k)) + b q`: the kernel side multiplies by the transposed
  weights `Wᵀ (k,q) = W (q,k)` and adds the bias laid out as a row, the reference contracts `x`'s axis 1 with the
  transposed weights' axis 0 and adds the bias broadcast along the rows. A change of float format is the identity on the
  extended reals.
-/
import proofs.«431383_j21732534518206_2_alg».proof.Proof.Gen.ReferenceIdeal.Read
import proofs.«431383_j21732534518206_2_alg».proof.Proof.KVal
import proofs.«431383_j21732534518206_2_alg».proof.Proof.Spec
import proofs.«431383_j21732534518206_2_alg».proof.Proof.LibDot
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.Bridge

open Idealize.ShloMosaic Idealize.ShloMosaic.ValueIdx
open Cert.KernelIdeal.KVal (C)

/-- The transposed embedding weights at `(k, q)` are the weights at `(q, k)`. -/
theorem wT5_apply (x5 : C Cert.KernelIdeal.S256x128 .f32) (k : Fin 128) (q : Fin 256) :
    (Cert.KernelIdeal.KVal.wT5 x5 : Cert.KernelIdeal.S128x256.Idx → EReal) (ix2 k q)
      = (x5 : Cert.KernelIdeal.S256x128.Idx → EReal) (ix2 q k) := by
  unfold Cert.KernelIdeal.KVal.wT5
  rw [truncf_apply]
  exact transpose_apply [1, 0] x5 _ (ix2 k q) (ix2 q k) (fun b => match b with
    | ⟨0, _⟩ => rfl
    | ⟨1, _⟩ => rfl)

/-- A bias vector laid out as a row reads, at `(0, q)`, the vector at `q`. -/
theorem bR_apply (b : C Cert.KernelIdeal.S256 .f32) (u : Fin 1) (q : Fin 256) :
    (Cert.KernelIdeal.KVal.bR b : Cert.KernelIdeal.S1x256.Idx → EReal) (ix2 u q)
      = (b : Cert.KernelIdeal.S256.Idx → EReal) (ix1 q) := by
  unfold Cert.KernelIdeal.KVal.bR
  refine shapeCast_apply b _ (ix2 u q) (ix1 q) ?_
  rw [Shape.rowMajor_val_one, Shape.rowMajor_val_two]
  show q.val = u.val * 256 + q.val
  have hu : u.val < 1 := u.isLt
  omega

/-- The kernel side's embedding at `(p, q)`. -/
theorem h0_apply (x0 : C Cert.KernelIdeal.S100000x128 .f32) (x5 : C Cert.KernelIdeal.S256x128 .f32) (x6 : C Cert.KernelIdeal.S256 .f32)
    (p : Fin 100000) (q : Fin 256) :
    (Cert.KernelIdeal.KVal.h0 x0 x5 x6 : Cert.KernelIdeal.S100000x256.Idx → EReal) (ix2 p q)
      = (∑ k : Fin 128, (x0 : Cert.KernelIdeal.S100000x128.Idx → EReal) (ix2 p k) * (x5 : Cert.KernelIdeal.S256x128.Idx → EReal) (ix2 q k))
        + (x6 : Cert.KernelIdeal.S256.Idx → EReal) (ix1 q) := by
  show Cert.Spec.linK x0 (Cert.KernelIdeal.KVal.wT5 x5) (Cert.KernelIdeal.KVal.bR x6) p q = _
  unfold Cert.Spec.linK
  rw [bR_apply]
  congr 1
  exact Finset.sum_congr rfl fun k _ => by rw [wT5_apply]

/-- The reference's embedding at `(p, q)`. -/
theorem ref_apply (x0 : C Cert.KernelIdeal.S100000x128 .f32) (x5 : C Cert.KernelIdeal.S256x128 .f32) (x6 : C Cert.KernelIdeal.S256 .f32)
    (p : Fin 100000) (q : Fin 256) :
    (Cert.ReferenceIdeal.Read.val_main_v12 (F := Ideal) x0 x5 x6 : Cert.KernelIdeal.S100000x256.Idx → EReal) (ix2 p q)
      = (∑ k : Fin 128, (x0 : Cert.KernelIdeal.S100000x128.Idx → EReal) (ix2 p k) * (x5 : Cert.KernelIdeal.S256x128.Idx → EReal) (ix2 q k))
        + (x6 : Cert.KernelIdeal.S256.Idx → EReal) (ix1 q) := by
  rw [Cert.ReferenceIdeal.Read.val_main_v12_apply, Cert.ReferenceIdeal.Read.val_main_v9_apply,
    Cert.ReferenceIdeal.Read.val_main_v11_apply, Cert.ReferenceIdeal.Read.val_main_v10_apply, Ideal.addf_def]
  have eb : Cert.ReferenceIdeal.Read.idx_main_v10 (Cert.ReferenceIdeal.Read.idx_main_v11 (ix2 p q)) = ix1 q :=
    funext fun a => Fin.ext (by match a with | ⟨0, _⟩ => rfl)
  rw [eb]
  congr 1
  refine Finset.sum_congr rfl fun k _ => ?_
  have el : Cert.ReferenceIdeal.Read.lidx_main_v9 (ix2 p q) k = ix2 p k :=
    funext fun a => Fin.ext (by match a with | ⟨0, _⟩ => rfl | ⟨1, _⟩ => rfl)
  have er : Cert.ReferenceIdeal.Read.idx_main_v8 (Cert.ReferenceIdeal.Read.ridx_main_v9 (ix2 p q) k) = ix2 q k :=
    funext fun a => Fin.ext (by match a with | ⟨0, _⟩ => rfl | ⟨1, _⟩ => rfl)
  rw [Cert.ReferenceIdeal.Read.val_main_v8_apply, el, er]

/-- The node embedding is the same array on the two sides. -/
theorem h0_eq (x0 : Cert.KernelIdeal.KVal.C Cert.KernelIdeal.S100000x128 .f32) (x5 : Cert.KernelIdeal.KVal.C Cert.KernelIdeal.S256x128 .f32) (x6 : Cert.KernelIdeal.KVal.C Cert.KernelIdeal.S256 .f32) : Cert.KernelIdeal.KVal.h0 x0 x5 x6 = Cert.ReferenceIdeal.Read.val_main_v12 (F := Ideal) x0 x5 x6 := by
  funext i
  obtain ⟨p, q, rfl⟩ : ∃ (p : Fin 100000) (q : Fin 256), i = ix2 p q := ⟨i 0, i 1, eq_ix2 i⟩
  exact (h0_apply x0 x5 x6 p q).trans (ref_apply x0 x5 x6 p q).symm

end Cert.Bridge

end
-- ==== Proof.DegPos.lean ====
/-
  Every node's count of incoming edges, plus one, is not zero.

  The count is a sum of ones added up at the destination nodes into an array of zeros: an accumulating scatter of
  updates that are not negative into an operand that is not negative is, at every entry, the operand's entry plus a sum
  of some of the updates, hence not negative; and a number that is not negative, plus one, is positive.
-/
import proofs.«431383_j21732534518206_2_alg».proof.Proof.Gen.ReferenceIdeal.Read
import Idealize.ShloMosaic.PureOps.Ideal
import Idealize.ShloMosaic.PureOps.Ideal.Laws
import Idealize.ShloMosaic.Lib.IdealHost
import Idealize.ShloMosaic.Lib.ValueIdx

noncomputable section

namespace Cert.Bridge

open Idealize.ShloMosaic Idealize.ShloMosaic.ValueIdx
open Cert.ReferenceIdeal Cert.ReferenceIdeal.Gen Cert.ReferenceIdeal.Read

/-- An accumulating scatter of updates that are not negative into an operand that is not negative is not negative
    at any entry: the entry is the operand's plus a sum of some of the updates. -/
theorem scatterAdd_nonneg {s si su : Shape} {φ : FTy} {w : Nat} (d : ScatterDims s si su) (x : FVec Ideal s φ) (idx : IVec si w)
    (upd : FVec Ideal su φ) (hx : ∀ i, (0 : EReal) ≤ x i) (hu : ∀ j, (0 : EReal) ≤ upd j) (i : s.Idx) :
    (0 : EReal) ≤ Host.scatterAdd d x idx upd i := by
  unfold Host.scatterAdd
  rw [Ideal.hostScatterAdd_def]
  unfold Ideal.hostScatterAdd
  exact add_nonneg (hx i) (Finset.sum_nonneg fun j _ => hu j)

/-- An extended real that is not negative, plus one, is not zero. -/
theorem add_one_ne_zero_of_nonneg {a : EReal} (h : 0 ≤ a) : a + 1 ≠ 0 := by
  have h1 : (1 : EReal) ≤ a + 1 := le_add_of_nonneg_left h
  intro e
  rw [e] at h1
  exact absurd h1 (not_le.mpr zero_lt_one)

/-- The array the counts are added into is zero everywhere. -/
theorem zeros_apply (i : S100000.Idx) : (val_main_v5 (F := Ideal) i : EReal) = 0 := by
  rw [val_main_v5_apply, val_main_cst_0_apply, Ideal.ofBits_def, Ideal.ofBits_zero_f32]

/-- Every edge contributes one. -/
theorem ones_apply (j : S500000.Idx) : (val_main_v4 (F := Ideal) j : EReal) = 1 := by
  rw [val_main_v4_apply, val_main_cst_apply, Ideal.ofBits_def, Ideal.ofBits_one_f32]

/-- Every node's count of incoming edges, plus one, is not zero. -/
theorem deg_add_one_ne_zero (x1 : (⟨S2x500000, .i32⟩ : BufTy).Contents (Elt Ideal)) (p : Fin 100000) :
    val_main_v7 (F := Ideal) x1 (ix1 p) + 1 ≠ 0 := by
  refine add_one_ne_zero_of_nonneg ?_
  unfold val_main_v7
  exact scatterAdd_nonneg scatter_S100000_S500000x1_S500000_n_0_0_1 (val_main_v5 (F := Ideal)) (val_main_v6 (F := Ideal) x1)
    (val_main_v4 (F := Ideal)) (fun i => (zeros_apply i).ge) (fun j => (ones_apply j).ge.trans' zero_le_one) (ix1 p)

end Cert.Bridge

end
-- ==== Proof.BridgeSage.lean ====
/-
  One aggregation layer: the kernel program's value is the reference's.

  The reference gathers the rows of the features `h` at the (wrapped) source nodes, adds them up at the destination
  nodes, adds `h`, divides every row by the node's in-degree plus one, multiplies by the transposed first weight matrix,
  adds the bias, adds `h` times the transposed second weight matrix, and clips below at zero (`refLayer`; both of the
  reference's layers are this function, `refLayer_v54` and `refLayer_v79`). The kernel program's layer (`KVal.layer`)
  multiplies the same sum by the factor `1 / (deg + 1)` and adds the bias after the second product. The neighbour sums
  are the same scatter-add of the same gather; `x · (1 / b) = x / b` for `b ≠ 0`, and the in-degree plus one is never
  zero; the two orders of the three summands agree by commutativity (`layer_eq`).
-/
import proofs.«431383_j21732534518206_2_alg».proof.Proof.Gen.ReferenceIdeal.Read
import proofs.«431383_j21732534518206_2_alg».proof.Proof.KVal
import proofs.«431383_j21732534518206_2_alg».proof.Proof.Spec
import proofs.«431383_j21732534518206_2_alg».proof.Proof.LibDot
import proofs.«431383_j21732534518206_2_alg».proof.Proof.LibColumn
import proofs.«431383_j21732534518206_2_alg».proof.Proof.DegPos
import Idealize.ShloMosaic.PureOps.Ideal
import Idealize.ShloMosaic.PureOps.Ideal.Laws
import Idealize.ShloMosaic.Lib.IdealHost
import Idealize.ShloMosaic.Lib.Pipeline.Value
import Idealize.ShloMosaic.Lib.ValueIdx
import Idealize.ShloMosaic.Lib.ValueLayout

set_option maxRecDepth 16384

noncomputable section

namespace Cert.Bridge

open Idealize.ShloMosaic Idealize.ShloMosaic.ValueIdx
open Cert.ReferenceIdeal Cert.ReferenceIdeal.Gen Cert.ReferenceIdeal.Read

/-! ## One aggregation layer as the reference computes it -/

/-- The rows of `h` at the (wrapped) source nodes, added up at the destination nodes. -/
def refAgg (x1 : (⟨S2x500000, .i32⟩ : BufTy).Contents (Elt Ideal)) (h : (⟨S100000x256, .f32⟩ : BufTy).Contents (Elt Ideal)) :
    (⟨S100000x256, .f32⟩ : BufTy).Contents (Elt Ideal) :=
  Host.scatterAdd (F := Ideal) (φ := .f32) scatter_S100000x256_S500000x1_S500000x256_1_0_0_1 (val_main_v37 (F := Ideal)) (val_main_v38 (F := Ideal) x1)
    (Host.gather gather_S100000x256_S500000x1_S500000x256_1_0_n_n_0_1_1256 h (val_main_v35 (F := Ideal) x1))

/-- The layer over the features `h`: the neighbour sum plus `h`, divided by the in-degree plus one, through the transposed
    first weights, plus the bias, plus `h` through the transposed second weights, clipped below at zero. -/
def refLayer (x1 : (⟨S2x500000, .i32⟩ : BufTy).Contents (Elt Ideal)) (h : (⟨S100000x256, .f32⟩ : BufTy).Contents (Elt Ideal))
    (wl : (⟨S256x256, .f32⟩ : BufTy).Contents (Elt Ideal)) (bl : (⟨S256, .f32⟩ : BufTy).Contents (Elt Ideal))
    (wr : (⟨S256x256, .f32⟩ : BufTy).Contents (Elt Ideal)) : (⟨S100000x256, .f32⟩ : BufTy).Contents (Elt Ideal) :=
  maximumf (F := Ideal) (φ := .f32)
    (addf (F := Ideal) (φ := .f32)
      (addf (F := Ideal) (φ := .f32)
        (Host.dotGeneral (F := Ideal) (φ₁ := .f32) (φ₂ := .f32) dot_S100000x256_S256x256_S100000x256_1_0_0_1_n_n none
          (Host.divf (F := Ideal) (φ := .f32) (addf (F := Ideal) (φ := .f32) (refAgg x1 h) h) (val_main_v44 (F := Ideal) x1))
          (val_main_v46 (F := Ideal) wl))
        (val_main_v49 (F := Ideal) bl))
      (Host.dotGeneral (F := Ideal) (φ₁ := .f32) (φ₂ := .f32) dot_S100000x256_S256x256_S100000x256_1_0_0_1_n_n none h (val_main_v51 (F := Ideal) wr)))
    (val_main_call0_v0 (F := Ideal))

/-- The reference's first layer is that function of the node embedding. -/
theorem refLayer_v54 (x0 : (⟨S100000x128, .f32⟩ : BufTy).Contents (Elt Ideal)) (x1 : (⟨S2x500000, .i32⟩ : BufTy).Contents (Elt Ideal))
    (x5 : (⟨S256x128, .f32⟩ : BufTy).Contents (Elt Ideal)) (x6 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) :
    val_main_v54 (F := Ideal) x0 x1 x5 x6 x8 x9 x10 = refLayer x1 (val_main_v12 (F := Ideal) x0 x5 x6) x8 x9 x10 := rfl

/-- The reference's second layer is the same function of the first layer's result. -/
theorem refLayer_v79 (x0 : (⟨S100000x128, .f32⟩ : BufTy).Contents (Elt Ideal)) (x1 : (⟨S2x500000, .i32⟩ : BufTy).Contents (Elt Ideal))
    (x5 : (⟨S256x128, .f32⟩ : BufTy).Contents (Elt Ideal)) (x6 : (⟨S256, .f32⟩ : BufTy).Contents (Elt Ideal))
    (x8 : (⟨S256x256, .f32⟩ : BufTy).Contents (Elt Ideal)) (x9 : (⟨S256, .f32⟩ : BufTy).Contents (Elt Ideal))
    (x10 x13 : (⟨S256x256, .f32⟩ : BufTy).Contents (Elt Ideal)) (x14 : (⟨S256, .f32⟩ : BufTy).Contents (Elt Ideal))
    (x15 : (⟨S256x256, .f32⟩ : BufTy).Contents (Elt Ideal)) :
    val_main_v79 (F := Ideal) x0 x1 x5 x6 x8 x9 x10 x13 x14 x15
      = refLayer x1 (val_main_v54 (F := Ideal) x0 x1 x5 x6 x8 x9 x10) x13 x14 x15 := rfl

/-! ## The reference's layer read at an index -/

/-- A transposed square matrix at `(k, q)` is the matrix at `(q, k)`. -/
theorem sage_wlT_apply (w : (⟨S256x256, .f32⟩ : BufTy).Contents (Elt Ideal)) (k q : Fin 256) :
    val_main_v46 (F := Ideal) w (ix2 k q) = w (ix2 q k) :=
  transpose_ix2_apply w transposes_S256x256_S256x256_1_0 k q

theorem sage_wrT_apply (w : (⟨S256x256, .f32⟩ : BufTy).Contents (Elt Ideal)) (k q : Fin 256) :
    val_main_v51 (F := Ideal) w (ix2 k q) = w (ix2 q k) :=
  transpose_ix2_apply w transposes_S256x256_S256x256_1_0 k q

/-- The bias laid along every row. -/
theorem sage_bias_apply (b : (⟨S256, .f32⟩ : BufTy).Contents (Elt Ideal)) (p : Fin 100000) (q : Fin 256) :
    val_main_v49 (F := Ideal) b (ix2 p q) = b (ix1 q) := by
  rw [val_main_v49_apply, val_main_v48_apply]
  exact congrArg b (funext fun a => Fin.ext (by match a with | ⟨0, _⟩ => rfl))

/-- The divisor at row `p` is the in-degree of node `p` plus one, in every column. -/
theorem sage_den_apply (x1 : (⟨S2x500000, .i32⟩ : BufTy).Contents (Elt Ideal)) (p : Fin 100000) (k : Fin 256) :
    val_main_v44 (F := Ideal) x1 (ix2 p k) = val_main_v7 (F := Ideal) x1 (ix1 p) + 1 := by
  rw [val_main_v44_apply, val_main_v43_apply, val_main_v42_apply, val_main_v41_apply, val_main_cst_5_apply, Ideal.addf_def,
    Ideal.ofBits_def, Ideal.ofBits_one_f32]
  exact congrArg (fun j => val_main_v7 (F := Ideal) x1 j + 1) (funext fun a => Fin.ext (by match a with | ⟨0, _⟩ => rfl))

/-- The clip's lower bound is zero. -/
theorem sage_clip_apply (p : Fin 100000) (q : Fin 256) : val_main_call0_v0 (F := Ideal) (ix2 p q) = 0 := by
  rw [val_main_call0_v0_apply, val_main_call0_cst_apply, Ideal.ofBits_def, Ideal.ofBits_zero_f32]

/-- The reference's layer at row `p`, column `q`. -/
theorem refLayer_apply (x1 : (⟨S2x500000, .i32⟩ : BufTy).Contents (Elt Ideal)) (h : (⟨S100000x256, .f32⟩ : BufTy).Contents (Elt Ideal))
    (wl : (⟨S256x256, .f32⟩ : BufTy).Contents (Elt Ideal)) (bl : (⟨S256, .f32⟩ : BufTy).Contents (Elt Ideal))
    (wr : (⟨S256x256, .f32⟩ : BufTy).Contents (Elt Ideal)) (p : Fin 100000) (q : Fin 256) :
    refLayer x1 h wl bl wr (ix2 p q)
      = max (((∑ k : Fin 256, Ideal.div (refAgg x1 h (ix2 p k) + h (ix2 p k)) (val_main_v7 (F := Ideal) x1 (ix1 p) + 1) * wl (ix2 q k))
            + bl (ix1 q)) + ∑ k : Fin 256, h (ix2 p k) * wr (ix2 q k)) 0 := by
  unfold refLayer
  rw [maximumf_apply, addf_apply, addf_apply,
    Cert.LibDot.dotGeneral_plain_apply dot_S100000x256_S256x256_S100000x256_1_0_0_1_n_n rfl rfl rfl rfl rfl rfl,
    Cert.LibDot.dotGeneral_plain_apply dot_S100000x256_S256x256_S100000x256_1_0_0_1_n_n rfl rfl rfl rfl rfl rfl,
    sage_bias_apply, sage_clip_apply]
  refine congrArg (fun z => max z 0) ?_
  refine congrArg₂ (· + ·) (congrArg (· + bl (ix1 q)) (Finset.sum_congr rfl fun k _ => ?_)) (Finset.sum_congr rfl fun k _ => ?_)
  · rw [hostDivf_apply, addf_apply, sage_den_apply, sage_wlT_apply]
  · rw [sage_wrT_apply]

/-! ## The kernel's layer read at an index -/

/-- The kernel's neighbour sum is the reference's: the same scatter-add of the same gather. -/
theorem sage_agg_eq (x1 : KernelIdeal.KVal.C KernelIdeal.S2x500000 .i32) (h : KernelIdeal.KVal.C KernelIdeal.S100000x256 .bf16) :
    KernelIdeal.KVal.agg x1 h = refAgg x1 h := rfl

/-- The kernel's in-degree is the reference's. -/
theorem sage_deg_eq (x1 : KernelIdeal.KVal.C KernelIdeal.S2x500000 .i32) : KernelIdeal.KVal.deg x1 = val_main_v7 (F := Ideal) x1 := rfl

/-- The kernel's factor at row `p` is one over the in-degree plus one. -/
theorem sage_invd_apply (x1 : KernelIdeal.KVal.C KernelIdeal.S2x500000 .i32) (p : Fin 100000) :
    KernelIdeal.KVal.invd x1 (ix2 p (0 : Fin 1)) = Ideal.div 1 (val_main_v7 (F := Ideal) x1 (ix1 p) + 1) := by
  unfold KernelIdeal.KVal.invd
  rw [Cert.LibColumn.shapeCast_a_a1_apply, hostDivf_apply, addf_apply, broadcastInDim_scalar_apply, constant_apply,
    Ideal.ofBits_one_f32, sage_deg_eq]

theorem sage_kwT_apply (w : KernelIdeal.KVal.C KernelIdeal.S256x256 .f32) (k q : Fin 256) :
    KernelIdeal.KVal.wT w (ix2 k q) = w (ix2 q k) :=
  transpose_ix2_apply w KernelIdeal.Facts₀.transposes_S256x256_S256x256_1_0 k q

theorem sage_kbR_apply (b : KernelIdeal.KVal.C KernelIdeal.S256 .f32) (q : Fin 256) :
    KernelIdeal.KVal.bR b (ix2 (0 : Fin 1) q) = b (ix1 q) :=
  shapeCast_a_1a_apply b KernelIdeal.Facts₀.shapeCasts_S256_S1x256 0 q

theorem sage_layer_apply (x1 : KernelIdeal.KVal.C KernelIdeal.S2x500000 .i32) (h : KernelIdeal.KVal.C KernelIdeal.S100000x256 .bf16)
    (wl : KernelIdeal.KVal.C KernelIdeal.S256x256 .f32) (bl : KernelIdeal.KVal.C KernelIdeal.S256 .f32)
    (wr : KernelIdeal.KVal.C KernelIdeal.S256x256 .f32) (p : Fin 100000) (q : Fin 256) :
    KernelIdeal.KVal.layer x1 h wl bl wr (ix2 p q)
      = max (((∑ k : Fin 256, ((KernelIdeal.KVal.agg x1 h (ix2 p k) + h (ix2 p k)) * KernelIdeal.KVal.invd x1 (ix2 p (0 : Fin 1)))
                * KernelIdeal.KVal.wT wl (ix2 k q))
            + ∑ k : Fin 256, h (ix2 p k) * KernelIdeal.KVal.wT wr (ix2 k q)) + KernelIdeal.KVal.bR bl (ix2 (0 : Fin 1) q)) 0 := rfl

/-! ## The two layers agree -/

/-- The kernel multiplies by `1 / (deg + 1)` where the reference divides by `deg + 1`, and adds the bias last where the
    reference adds it between the two products; `deg + 1` is never zero. -/
theorem layer_eq (x1 : KernelIdeal.KVal.C KernelIdeal.S2x500000 .i32) (h : KernelIdeal.KVal.C KernelIdeal.S100000x256 .bf16)
    (wl : KernelIdeal.KVal.C KernelIdeal.S256x256 .f32) (bl : KernelIdeal.KVal.C KernelIdeal.S256 .f32)
    (wr : KernelIdeal.KVal.C KernelIdeal.S256x256 .f32) :
    KernelIdeal.KVal.layer x1 h wl bl wr = refLayer x1 h wl bl wr := by
  funext i
  obtain ⟨p, q, rfl⟩ : ∃ (p : Fin 100000) (q : Fin 256), i = ix2 p q := ⟨i 0, i 1, eq_ix2 i⟩
  rw [sage_layer_apply, refLayer_apply, sage_invd_apply, sage_kbR_apply]
  refine congrArg (fun z => max z 0) ((add_right_comm _ _ _).trans ?_)
  refine congrArg₂ (· + ·) (congrArg (· + bl (ix1 q)) (Finset.sum_congr rfl fun k _ => ?_)) (Finset.sum_congr rfl fun k _ => ?_)
  · rw [sage_kwT_apply, sage_agg_eq]
    exact congrArg (· * wl (ix2 q k)) (Ideal.mul_one_div (deg_add_one_ne_zero x1 p))
  · rw [sage_kwT_apply]

end Cert.Bridge

end
-- ==== Proof.LinkLemmas.lean ====
/-
  Three readings for the predictor.

  A scatter that overwrites (its body keeps the update), read at an index exactly one update lands at, holds that
  update. So the second weight row written into column 0 of a matrix of zeros is read back in column 0
  (`w2p_col0`), and the second bias written at entry (0, 0) of a row of zeros is read back there (`b2p_00`). And the
  reference's row of features `[s, d, s · d, |s − d|]`, four arrays of 256 columns laid side by side, reads at
  column `k` the array whose span holds `k` (`refcat_apply`).
-/
import proofs.«431383_j21732534518206_2_alg».proof.Proof.KVal
import proofs.«431383_j21732534518206_2_alg».proof.Proof.Spec
import proofs.«431383_j21732534518206_2_alg».proof.ReferenceIdeal
import proofs.«431383_j21732534518206_2_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.LinkLemmas

open Idealize.ShloMosaic Idealize.ShloMosaic.ValueIdx

/-! ## A scatter that sets, read at an index one update lands at -/

/-- A left fold of steps over a list, read at one point `i`: when one element `n0` of the index type always leaves `v` at `i` and
    every other element leaves the point as it was, the fold leaves `v` there if `n0` is in the list and the start value if not. -/
theorem foldl_point {R ι V : Type} [DecidableEq ι] (ev : R → V) (step : R → ι → R) (v : V) (n0 : ι)
    (h1 : ∀ r, ev (step r n0) = v) (h2 : ∀ r n, n ≠ n0 → ev (step r n) = ev r) :
    ∀ (L : List ι) (r : R), ev (L.foldl step r) = if n0 ∈ L then v else ev r := by
  intro L
  induction L with
  | nil => intro r; simp
  | cons n L ih =>
    intro r
    rw [List.foldl_cons, ih]
    by_cases hn : n = n0
    · subst hn
      rw [h1, if_pos (List.mem_cons_self)]
      split <;> rfl
    · rw [h2 r n hn]
      have hm : n0 ∈ n :: L ↔ n0 ∈ L := by
        rw [List.mem_cons]
        exact ⟨fun h => h.resolve_left (fun e => hn e.symm), Or.inr⟩
      by_cases hL : n0 ∈ L
      · rw [if_pos hL, if_pos (hm.mpr hL)]
      · rw [if_neg hL, if_neg (fun h => hL (hm.mp h))]

/-- A scatter whose body keeps the update, read at an index that exactly one update lands at, is that update. -/
theorem scatter_set_apply {α : Type} {s si u : Shape} {w : Nat} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine (foldl_point (fun r : s.Idx → α => r i) _ (upd j) (u.rowMajor j) ?_ ?_ _ _).trans (if_pos (List.mem_finRange _))
  · intro r
    simp only [Equiv.symm_apply_apply, hj, ↓reduceIte]
  · intro r n hn
    dsimp only
    cases heq : d.resultIdx? (u.rowMajor.symm n) idx with
    | none => rfl
    | some i0 =>
      have hne : i ≠ i0 := fun h => hn (by
        have := huniq _ (h ▸ heq)
        rw [← this, Equiv.apply_symm_apply])
      show (if i = i0 then _ else r i) = r i
      rw [if_neg hne]

/-- Where every scatter index is the zero word, every window starts at 0. -/
theorem start_eq_zero {s si u : Shape} {w : Nat} (d : ScatterDims s si u) (j : u.Idx) (idx : IVec si w)
    (hidx : ∀ i, idx i = 0#w) (a : Fin s.rank) : d.start j idx a = 0 := by
  unfold ScatterDims.start
  split
  · rw [hidx]; exact BitVec.toInt_zero
  · rfl

/-- An update lands at `i` when on every axis its window's start plus its window coordinate is `i`'s coordinate. -/
theorem resultIdx?_eq_some {s si u : Shape} {w : Nat} (d : ScatterDims s si u) (j : u.Idx) (idx : IVec si w) (i : s.Idx)
    (h : ∀ a, d.start j idx a + (d.window j a : Int) = ((i a).val : Int)) : d.resultIdx? j idx = some i := by
  unfold ScatterDims.resultIdx?
  have hall : ∀ a, 0 ≤ d.start j idx a + (d.window j a : Int) ∧ d.start j idx a + (d.window j a : Int) < (s.size a : Int) := fun a => by
    rw [h a]; have := (i a).isLt; omega
  rw [dif_pos hall]
  congr 1
  funext a
  apply Fin.ext
  show (d.start j idx a + (d.window j a : Int)).toNat = (i a).val
  rw [h a]; omega

section KernelSide

open Cert.KernelIdeal Cert.KernelIdeal.Facts₀ Cert.KernelIdeal.Facts

/-! ## The second weight row set into column 0 of a zero matrix -/

/-- In the column scatter the row axis carries the update's own coordinate. -/
theorem col_window0 (k : Fin 256) : scatter_S256x128_S1_S256_0_1_1_0.window (ix1 k) 0 = k.val := by
  unfold ScatterDims.window
  rw [dif_pos (show (0 : Fin 2) ∈ scatter_S256x128_S1_S256_0_1_1_0.sKept from by decide)]
  rfl

/-- The column axis is inserted: its window coordinate is 0. -/
theorem col_window1 (j : S256.Idx) : scatter_S256x128_S1_S256_0_1_1_0.window j 1 = 0 := by
  unfold ScatterDims.window
  rw [dif_neg (show ¬ (1 : Fin 2) ∈ scatter_S256x128_S1_S256_0_1_1_0.sKept from by decide)]

/-- At the zero index, update `k` lands at `(k, 0)`. -/
theorem col_lands (idx : IVec S1 32) (hidx : ∀ i, idx i = 0#32) (k : Fin 256) :
    scatter_S256x128_S1_S256_0_1_1_0.resultIdx? (ix1 k) idx = some (ix2 k (0 : Fin 128)) := by
  refine resultIdx?_eq_some _ _ _ _ fun a => ?_
  rw [start_eq_zero _ _ _ hidx]
  match a with
  | ⟨0, _⟩ =>
    rw [show (⟨0, by omega⟩ : Fin 2) = 0 from rfl, col_window0]
    show (0 : Int) + (k.val : Int) = (k.val : Int)
    omega
  | ⟨1, _⟩ =>
    rw [show (⟨1, by omega⟩ : Fin 2) = 1 from rfl, col_window1]
    rfl

/-- Column 0 of the padded second weight matrix is the weight row. -/
theorem w2p_col0 (x20 : Cert.KernelIdeal.KVal.C Cert.KernelIdeal.S1x256 .f32) (j : Fin 256) :
    Cert.KernelIdeal.KVal.w2p x20 (ix2 j (0 : Fin 128)) = x20 (ix2 (0 : Fin 1) j) := by
  unfold Cert.KernelIdeal.KVal.w2p
  have hidx : ∀ i, (broadcastInDim S1 ![] bcast_S_S1 (constantI S_ 32 0#32) : IVec S1 32) i = 0#32 := fun _ => rfl
  refine (truncf_apply (s := S256x128) (φ := .f32) (ψ := .bf16) _ bitsLt_bf16_f32 (ix2 j (0 : Fin 128))).trans ?_
  refine (scatter_set_apply _ _ _ _ (ix2 j (0 : Fin 128)) (ix1 j) (col_lands _ hidx j) ?_).trans (shapeCast_1a_a_apply x20 _ j)
  intro j' hj'
  obtain ⟨k', rfl⟩ : ∃ k' : Fin 256, j' = ix1 k' := ⟨j' 0, eq_ix1 j'⟩
  rw [col_lands _ hidx k'] at hj'
  have hk : k' = j := congrFun (Option.some.inj hj') 0
  rw [hk]

/-! ## The second bias set into entry (0, 0) of a zero row -/

/-- Two one-element vectors of zero words laid end to end hold the zero word everywhere. -/
theorem idx00_zero (i : S2.Idx) :
    (concatenate S2 0 [⟨S1, broadcastInDim S1 ![] bcast_S_S1 (constantI S_ 32 0#32)⟩, ⟨S1, broadcastInDim S1 ![] bcast_S_S1 (constantI S_ 32 0#32)⟩]
      concatenates_S1_S1_S2_d0 : IVec S2 32) i = 0#32 := by
  have hz : ∀ p ∈ ([⟨S1, broadcastInDim S1 ![] bcast_S_S1 (constantI S_ 32 0#32)⟩, ⟨S1, broadcastInDim S1 ![] bcast_S_S1 (constantI S_ 32 0#32)⟩] :
      List ((r : Shape) × IVec r 32)), ∀ x, p.2 x = 0#32 := by
    intro p hp x
    rcases List.mem_cons.mp hp with rfl | hp
    · rfl
    · rcases List.mem_cons.mp hp with rfl | hp
      · rfl
      · exact absurd hp List.not_mem_nil
  unfold concatenate
  exact hz _ (List.getElem_mem _) _

/-- Both axes of the bias row are inserted: every window coordinate is 0. -/
theorem pt_window (j : S_.Idx) (a : Fin 2) : scatter_S1x128_S2_S__n_01_01_0.window j a = 0 := by
  unfold ScatterDims.window
  split
  · next ha =>
    exact absurd ha (by rw [show scatter_S1x128_S2_S__n_01_01_0.sKept = [] from by decide]; exact List.not_mem_nil)
  · rfl

/-- At the zero index vector, the one update lands at `(0, 0)`. -/
theorem pt_lands (idx : IVec S2 32) (hidx : ∀ i, idx i = 0#32) (j : S_.Idx) :
    scatter_S1x128_S2_S__n_01_01_0.resultIdx? j idx = some (ix2 (0 : Fin 1) (0 : Fin 128)) := by
  refine resultIdx?_eq_some _ _ _ _ fun a => ?_
  rw [start_eq_zero _ _ _ hidx, pt_window]
  match a with
  | ⟨0, _⟩ => rfl
  | ⟨1, _⟩ => rfl

/-- Entry (0, 0) of the padded second bias row is the bias. -/
theorem b2p_00 (x21 : Cert.KernelIdeal.KVal.C Cert.KernelIdeal.S1 .f32) :
    Cert.KernelIdeal.KVal.b2p x21 (ix2 (0 : Fin 1) (0 : Fin 128)) = x21 (ix1 (0 : Fin 1)) := by
  unfold Cert.KernelIdeal.KVal.b2p
  refine (scatter_set_apply _ _ _ _ (ix2 (0 : Fin 1) (0 : Fin 128)) ix0 (pt_lands _ idx00_zero ix0) (fun j' _ => eq_ix0 j')).trans ?_
  refine shapeCast_apply x21 _ ix0 (ix1 (0 : Fin 1)) ?_
  rw [Shape.rowMajor_val_one]
  have h1 : S_.numel = 1 := Shape.numel_eq_one (fun a => a.elim0)
  have h2 := (S_.rowMajor ix0).isLt
  show 0 = (S_.rowMajor ix0).val
  omega

end KernelSide

section ReferenceSide

open Cert.ReferenceIdeal Cert.ReferenceIdeal.Facts₀ Cert.ReferenceIdeal.Facts

/-! ## The host's four feature blocks laid side by side -/

/-- Four arrays of 256 columns laid side by side, read at row `a` and column `k`: the array whose span holds `k`, at `k` less
    the columns before it. -/
theorem hostcat4_apply {α : Type} (y0 y1 y2 y3 : S16384x256.Idx → α)
    (h : Shape.Concatenates [S16384x256, S16384x256, S16384x256, S16384x256] S16384x1024 1) (a : Fin 16384) (k : Fin 1024) :
    concatenate S16384x1024 1 [⟨S16384x256, y0⟩, ⟨S16384x256, y1⟩, ⟨S16384x256, y2⟩, ⟨S16384x256, y3⟩] h (ix2 a k)
      = if h0 : k.val < 256 then y0 (ix2 a ⟨k.val, h0⟩)
        else if h1 : k.val < 512 then y1 (ix2 a ⟨k.val - 256, by omega⟩)
        else if h2 : k.val < 768 then y2 (ix2 a ⟨k.val - 512, by omega⟩)
        else y3 (ix2 a ⟨k.val - 768, by omega⟩) := by
  have hk := k.isLt
  have off : ∀ (n : Nat) (hn : n < 256) (b : Fin S16384x256.rank), b.cast (rfl : S16384x256.rank = S16384x1024.rank) ≠ (1 : Fin S16384x1024.rank) →
      ((ix2 a (⟨n, hn⟩ : Fin 256) : S16384x256.Idx) b).val = ((ix2 a k : S16384x1024.Idx) (b.cast rfl)).val := fun n hn b =>
    match b with
    | ⟨0, _⟩ => fun _ => rfl
    | ⟨1, _⟩ => fun hb => (hb (Fin.ext rfl)).elim
  split
  · next h0 =>
    exact concatenate_apply_piece 1 [⟨S16384x256, y0⟩, ⟨S16384x256, y1⟩, ⟨S16384x256, y2⟩, ⟨S16384x256, y3⟩] h (ix2 a k) 0 (by simp) S16384x256 y0 rfl rfl 0 rfl (ix2 a ⟨k.val, h0⟩) (off _ _)
      (by show 0 + k.val = k.val; omega)
  · next h0 =>
    split
    · next h1 =>
      exact concatenate_apply_piece 1 [⟨S16384x256, y0⟩, ⟨S16384x256, y1⟩, ⟨S16384x256, y2⟩, ⟨S16384x256, y3⟩] h (ix2 a k) 1 (by simp) S16384x256 y1 rfl rfl 256 rfl (ix2 a ⟨k.val - 256, by omega⟩) (off _ _)
        (by show 256 + (k.val - 256) = k.val; omega)
    · next h1 =>
      split
      · next h2 =>
        exact concatenate_apply_piece 1 [⟨S16384x256, y0⟩, ⟨S16384x256, y1⟩, ⟨S16384x256, y2⟩, ⟨S16384x256, y3⟩] h (ix2 a k) 2 (by simp) S16384x256 y2 rfl rfl 512 rfl (ix2 a ⟨k.val - 512, by omega⟩) (off _ _)
          (by show 512 + (k.val - 512) = k.val; omega)
      · next h2 =>
        exact concatenate_apply_piece 1 [⟨S16384x256, y0⟩, ⟨S16384x256, y1⟩, ⟨S16384x256, y2⟩, ⟨S16384x256, y3⟩] h (ix2 a k) 3 (by simp) S16384x256 y3 rfl rfl 768 rfl (ix2 a ⟨k.val - 768, by omega⟩) (off _ _)
          (by show 768 + (k.val - 768) = k.val; omega)

/-- The reference's row of features `[s, d, s · d, |s − d|]` at row `p` and column `k`. -/
theorem refcat_apply (s d : (⟨2, ![16384, 256]⟩ : Shape).Idx → EReal) (p : Fin 16384) (k : Fin 1024) :
    concatenate S16384x1024 1 [⟨S16384x256, s⟩, ⟨S16384x256, d⟩, ⟨S16384x256, mulf (F := Ideal) (φ := .f32) s d⟩,
        ⟨S16384x256, Host.absf (F := Ideal) (φ := .f32) (subf (F := Ideal) (φ := .f32) s d)⟩]
      concatenates_S16384x256_S16384x256_S16384x256_S16384x256_S16384x1024_d1 (ix2 p k) = Cert.Spec.cat4At s d p k := by
  rw [hostcat4_apply]
  rfl

end ReferenceSide

end Cert.LinkLemmas

end
-- ==== Proof.BridgeLink.lean ====
/-
  The last stretch of the two programs, from the third layer's node features to the result.

  Both programs take the rows of the features `h` at the two lists of node ids (negative ids wrapped around by the
  number of nodes), giving `s` and `d`; lay `s`, `d`, `s · d` and `|s − d|` side by side; multiply by the
  transposed first weight matrix, add the first bias and clip below at zero; multiply by the second weight row, add the
  second bias; and apply `1 / (1 + exp (−·))`.

  `refOut` is the reference's result as that function of `h`, and `refOut_v115` says the reference's last value is
  `refOut` of its third layer's value. `out_eq` says the kernel's result over `h` is `refOut h`.

  The kernel pads the second weight row and the second bias with zeros from one column to 128 and keeps column 0 at the
  end: at column 0 the padded second weight matrix is the weight row transposed and the padded bias is the bias, so column
  0 of the padded output is the reference's output column, sum for sum (`logits_col0`). The two row gathers are one
  operation applied to the same operands on both sides, so the gathered rows are equal as whole arrays (`pick_eq`; the
  features are an array of extended reals whatever their format, a change of format being the identity). The last
  nonlinearity is the same chain of pointwise operations on both sides, applied before a reshape on one side and after
  a slice and a reshape on the other (`k_sig0_apply`, `refSig_apply`).
-/
import proofs.«431383_j21732534518206_2_alg».proof.Proof.Gen.ReferenceIdeal.Read
import proofs.«431383_j21732534518206_2_alg».proof.Proof.KVal
import proofs.«431383_j21732534518206_2_alg».proof.Proof.Spec
import proofs.«431383_j21732534518206_2_alg».proof.Proof.LibDot
import proofs.«431383_j21732534518206_2_alg».proof.Proof.LinkLemmas
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.Gen

/-- The contents of a buffer of shape `S` and element type `e`, at the ideal instance. -/
abbrev CR (S : Shape) (e : EltTy) := (⟨S, e⟩ : BufTy).Contents (Elt Ideal)

/-! ## The reference's last stretch as a function of the node features -/

/-- Node ids with the negative ones wrapped around by the number of nodes, as a column of start indices. -/
def refIdx (s : CR S16384 .i32) : CR S16384x1 .i32 :=
  broadcastInDim S16384x1 ![0] bcast_S16384_S16384x1_0
    (select (cmpi .slt s (broadcastInDim S16384 ![] bcast_S_S16384 (constantI S_ 32 0#32)))
      (addi s (broadcastInDim S16384 ![] bcast_S_S16384 (constantI S_ 32 100000#32))) s)

/-- The rows of `h` at the node ids `s`. -/
def refPick (h : CR S100000x256 .f32) (s : CR S16384 .i32) : CR S16384x256 .f32 :=
  Host.gather gather_S100000x256_S16384x1_S16384x256_1_0_n_n_0_1_1256 h (refIdx s)

/-- The four blocks `s`, `d`, `s · d`, `|s − d|` side by side. -/
def refCat (s d : CR S16384x256 .f32) : CR S16384x1024 .f32 :=
  concatenate S16384x1024 1
    [⟨S16384x256, s⟩, ⟨S16384x256, d⟩, ⟨S16384x256, mulf (F := Ideal) (φ := .f32) s d⟩,
      ⟨S16384x256, Host.absf (F := Ideal) (φ := .f32) (subf (F := Ideal) (φ := .f32) s d)⟩]
    concatenates_S16384x256_S16384x256_S16384x256_S16384x256_S16384x1024_d1

/-- The hidden layer: the product with the transposed first weight matrix, plus the bias, clipped below at zero. -/
def refHid (s d : CR S16384x256 .f32) (x18 : CR S256x1024 .f32) (x19 : CR S256 .f32) : CR S16384x256 .f32 :=
  maximumf (F := Ideal) (φ := .f32)
    (addf (F := Ideal) (φ := .f32)
      (Host.dotGeneral (F := Ideal) (φ₁ := .f32) (φ₂ := .f32) dot_S16384x1024_S1024x256_S16384x256_1_0_0_1_n_n none (refCat s d)
        (transpose S1024x256 [1, 0] x18 transposes_S256x1024_S1024x256_1_0))
      (broadcastInDim S16384x256 ![0, 1] bcast_S1x256_S16384x256_0_1 (broadcastInDim S1x256 ![1] bcast_S256_S1x256_1 x19)))
    (broadcastInDim S16384x256 ![] bcast_S_S16384x256 (constant (F := Ideal) S_ .f32 0x00000000#32))

/-- The output column before the last nonlinearity: the product with the transposed second weight row, plus the bias. -/
def refLogit (s d : CR S16384x256 .f32) (x18 : CR S256x1024 .f32) (x19 : CR S256 .f32) (x20 : CR S1x256 .f32) (x21 : CR S1 .f32) :
    CR S16384x1 .f32 :=
  addf (F := Ideal) (φ := .f32)
    (Host.dotGeneral (F := Ideal) (φ₁ := .f32) (φ₂ := .f32) dot_S16384x256_S256x1_S16384x1_1_0_0_1_n_n none (refHid s d x18 x19)
      (transpose S256x1 [1, 0] x20 transposes_S1x256_S256x1_1_0))
    (broadcastInDim S16384x1 ![0, 1] bcast_S1x1_S16384x1_0_1 (broadcastInDim S1x1 ![1] bcast_S1_S1x1_1 x21))

/-- `1 / (1 + exp (−·))` of a column, as a vector. -/
def refSig (l : CR S16384x1 .f32) : CR S16384 .f32 :=
  shapeCast S16384
    (Host.divf (F := Ideal) (φ := .f32) (broadcastInDim S16384x1 ![] bcast_S_S16384x1 (constant (F := Ideal) S_ .f32 0x3F800000#32))
      (addf (F := Ideal) (φ := .f32) (broadcastInDim S16384x1 ![] bcast_S_S16384x1 (constant (F := Ideal) S_ .f32 0x3F800000#32))
        (Host.exp (F := Ideal) (φ := .f32) (Host.negf (F := Ideal) (φ := .f32) l))))
    shapeCasts_S16384x1_S16384

/-- The reference's result over the last layer's features `h`. -/
def refOut (h : (⟨Cert.ReferenceIdeal.S100000x256, .f32⟩ : BufTy).Contents (Elt Ideal))
    (x3 x4 : (⟨Cert.ReferenceIdeal.S16384, .i32⟩ : BufTy).Contents (Elt Ideal))
    (x18 : (⟨Cert.ReferenceIdeal.S256x1024, .f32⟩ : BufTy).Contents (Elt Ideal))
    (x19 : (⟨Cert.ReferenceIdeal.S256, .f32⟩ : BufTy).Contents (Elt Ideal))
    (x20 : (⟨Cert.ReferenceIdeal.S1x256, .f32⟩ : BufTy).Contents (Elt Ideal))
    (x21 : (⟨Cert.ReferenceIdeal.S1, .f32⟩ : BufTy).Contents (Elt Ideal)) :
    (⟨Cert.ReferenceIdeal.S16384, .f32⟩ : BufTy).Contents (Elt Ideal) :=
  refSig (refLogit (refPick h x3) (refPick h x4) x18 x19 x20 x21)

/-! ## The reference's pieces read at an index -/

/-- `1 / (1 + exp (−x))` on the extended reals, as the two programs compute it. -/
def sigm (x : EReal) : EReal :=
  FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) x)))

/-- The transposed first weight matrix at `(k, j)`. -/
theorem ref_w1T_apply (x18 : CR S256x1024 .f32) (k : Fin 1024) (j : Fin 256) :
    transpose S1024x256 [1, 0] x18 transposes_S256x1024_S1024x256_1_0 (ix2 k j) = x18 (ix2 j k) :=
  transpose_apply [1, 0] x18 transposes_S256x1024_S1024x256_1_0 (ix2 k j) (ix2 j k) (fun b => match b with
    | ⟨0, _⟩ => rfl
    | ⟨1, _⟩ => rfl)

/-- The transposed second weight row at `(j, 0)`. -/
theorem ref_w2T_apply (x20 : CR S1x256 .f32) (j : Fin 256) (u : Fin 1) :
    transpose S256x1 [1, 0] x20 transposes_S1x256_S256x1_1_0 (ix2 j u) = x20 (ix2 u j) :=
  transpose_apply [1, 0] x20 transposes_S1x256_S256x1_1_0 (ix2 j u) (ix2 u j) (fun b => match b with
    | ⟨0, _⟩ => rfl
    | ⟨1, _⟩ => rfl)

/-- The first bias laid along the rows, at `(p, j)`. -/
theorem ref_b1_apply (x19 : CR S256 .f32) (p : Fin 16384) (j : Fin 256) :
    broadcastInDim S16384x256 ![0, 1] bcast_S1x256_S16384x256_0_1 (broadcastInDim S1x256 ![1] bcast_S256_S1x256_1 x19) (ix2 p j)
      = x19 (ix1 j) := by
  refine (broadcastInDim_apply _ bcast_S1x256_S16384x256_0_1 _ (ix2 p j) (ix2 (0 : Fin 1) j) (fun a => match a with
    | ⟨0, _⟩ => by show 0 = if (1 : Nat) = 1 then 0 else p.val; rw [if_pos rfl]
    | ⟨1, _⟩ => by show j.val = if (256 : Nat) = 1 then 0 else j.val; rw [if_neg (by decide)])).trans ?_
  exact broadcastInDim_apply _ bcast_S256_S1x256_1 x19 (ix2 (0 : Fin 1) j) (ix1 j) (fun a => match a with
    | ⟨0, _⟩ => by show j.val = if (256 : Nat) = 1 then 0 else j.val; rw [if_neg (by decide)])

/-- The second bias laid along the rows, at `(p, 0)`. -/
theorem ref_b2_apply (x21 : CR S1 .f32) (p : Fin 16384) (u : Fin 1) :
    broadcastInDim S16384x1 ![0, 1] bcast_S1x1_S16384x1_0_1 (broadcastInDim S1x1 ![1] bcast_S1_S1x1_1 x21) (ix2 p u)
      = x21 (ix1 (0 : Fin 1)) := by
  refine (broadcastInDim_apply _ bcast_S1x1_S16384x1_0_1 _ (ix2 p u) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else u.val; rw [if_pos rfl])).trans ?_
  exact broadcastInDim_apply _ bcast_S1_S1x1_1 x21 (ix2 (0 : Fin 1) (0 : Fin 1)) (ix1 (0 : Fin 1)) (fun a => match a with
    | ⟨0, _⟩ => by show 0 = if (1 : Nat) = 1 then 0 else 0; rw [if_pos rfl])

/-- The reference's concatenation read at `(p, k)`: the block `k` falls in, at `k` less the blocks before it. -/
theorem refCat_apply (s d : CR S16384x256 .f32) (p : Fin 16384) (k : Fin 1024) :
    refCat s d (ix2 p k) = Cert.Spec.cat4At s d p k := by
  unfold refCat
  exact Cert.LinkLemmas.refcat_apply s d p k

/-- The hidden layer at `(p, j)`. -/
theorem refHid_apply (s d : CR S16384x256 .f32) (x18 : CR S256x1024 .f32) (x19 : CR S256 .f32) (p : Fin 16384) (j : Fin 256) :
    refHid s d x18 x19 (ix2 p j)
      = max ((∑ k : Fin 1024, Cert.Spec.cat4At s d p k * x18 (ix2 j k)) + x19 (ix1 j)) 0 := by
  show max (Host.dotGeneral (F := Ideal) (φ₁ := .f32) (φ₂ := .f32) dot_S16384x1024_S1024x256_S16384x256_1_0_0_1_n_n none (refCat s d)
        (transpose S1024x256 [1, 0] x18 transposes_S256x1024_S1024x256_1_0) (ix2 p j)
      + broadcastInDim S16384x256 ![0, 1] bcast_S1x256_S16384x256_0_1 (broadcastInDim S1x256 ![1] bcast_S256_S1x256_1 x19) (ix2 p j))
      (Ideal.ofBits .f32 0x00000000#32) = _
  rw [Cert.LibDot.dotGeneral_plain_apply (φ₁ := .f32) (φ₂ := .f32) dot_S16384x1024_S1024x256_S16384x256_1_0_0_1_n_n rfl rfl rfl rfl rfl rfl none
      (refCat s d) (transpose S1024x256 [1, 0] x18 transposes_S256x1024_S1024x256_1_0) p j,
    ref_b1_apply, Ideal.ofBits_zero_f32]
  congr 2
  refine Finset.sum_congr rfl fun k _ => ?_
  rw [refCat_apply, ref_w1T_apply]

/-- The output column at `(p, 0)`. -/
theorem refLogit_apply (s d : CR S16384x256 .f32) (x18 : CR S256x1024 .f32) (x19 : CR S256 .f32) (x20 : CR S1x256 .f32)
    (x21 : CR S1 .f32) (p : Fin 16384) :
    refLogit s d x18 x19 x20 x21 (ix2 p (0 : Fin 1))
      = (∑ j : Fin 256, max ((∑ k : Fin 1024, Cert.Spec.cat4At s d p k * x18 (ix2 j k)) + x19 (ix1 j)) 0 * x20 (ix2 (0 : Fin 1) j))
        + x21 (ix1 (0 : Fin 1)) := by
  show Host.dotGeneral (F := Ideal) (φ₁ := .f32) (φ₂ := .f32) dot_S16384x256_S256x1_S16384x1_1_0_0_1_n_n none (refHid s d x18 x19)
        (transpose S256x1 [1, 0] x20 transposes_S1x256_S256x1_1_0) (ix2 p (0 : Fin 1))
      + broadcastInDim S16384x1 ![0, 1] bcast_S1x1_S16384x1_0_1 (broadcastInDim S1x1 ![1] bcast_S1_S1x1_1 x21) (ix2 p (0 : Fin 1)) = _
  rw [Cert.LibDot.dotGeneral_plain_apply (φ₁ := .f32) (φ₂ := .f32) dot_S16384x256_S256x1_S16384x1_1_0_0_1_n_n rfl rfl rfl rfl rfl rfl none
      (refHid s d x18 x19) (transpose S256x1 [1, 0] x20 transposes_S1x256_S256x1_1_0) p (0 : Fin 1),
    ref_b2_apply]
  congr 1
  refine Finset.sum_congr rfl fun j _ => ?_
  rw [refHid_apply, ref_w2T_apply]

/-- The last nonlinearity at `p`: `1 / (1 + exp (−·))` of the column's entry `(p, 0)`. -/
theorem refSig_apply (l : CR S16384x1 .f32) (p : Fin 16384) : refSig l (ix1 p) = sigm (l (ix2 p (0 : Fin 1))) := by
  unfold refSig
  refine (shapeCast_apply _ shapeCasts_S16384x1_S16384 (ix1 p) (ix2 p (0 : Fin 1)) (by
    rw [Shape.rowMajor_val_two, Shape.rowMajor_val_one]
    show p.val * 1 + 0 = p.val
    omega)).trans ?_
  rfl

/-! ## The kernel's pieces read at an index -/

/-- The kernel's transposed first weight matrix at `(k, j)`. -/
theorem k_w1T_apply (x18 : Cert.KernelIdeal.KVal.C Cert.KernelIdeal.S256x1024 .f32) (k : Fin 1024) (j : Fin 256) :
    Cert.KernelIdeal.KVal.w1T x18 (ix2 k j) = x18 (ix2 j k) := by
  unfold Cert.KernelIdeal.KVal.w1T
  exact transpose_apply [1, 0] x18 _ (ix2 k j) (ix2 j k) (fun b => match b with
    | ⟨0, _⟩ => rfl
    | ⟨1, _⟩ => rfl)

/-- A bias vector as a row, at `(0, j)`. -/
theorem k_bR_apply (b : Cert.KernelIdeal.KVal.C Cert.KernelIdeal.S256 .f32) (j : Fin 256) :
    Cert.KernelIdeal.KVal.bR b (ix2 (0 : Fin 1) j) = b (ix1 j) := by
  unfold Cert.KernelIdeal.KVal.bR
  exact shapeCast_apply b _ (ix2 (0 : Fin 1) j) (ix1 j) (by
    rw [Shape.rowMajor_val_one, Shape.rowMajor_val_two]
    show j.val = 0 * 256 + j.val
    omega)

/-- The kernel's last nonlinearity at `p`: `1 / (1 + exp (−·))` of the entry `(p, 0)` of the padded output. -/
theorem k_sig0_apply (l : Cert.KernelIdeal.KVal.C Cert.KernelIdeal.S16384x128 .f32) (p : Fin 16384) :
    Cert.KernelIdeal.KVal.sig0 l (ix1 p) = sigm (l (ix2 p (0 : Fin 128))) := by
  have e : shapeCast Cert.KernelIdeal.S16384
      (extractStridedSlice Cert.KernelIdeal.S16384x1 ![0, 0] l Cert.KernelIdeal.Facts₀.slices_S16384x128_S16384x1_0_0)
      Cert.KernelIdeal.Facts₀.shapeCasts_S16384x1_S16384 (ix1 p) = l (ix2 p (0 : Fin 128)) := by
    refine (shapeCast_apply _ _ (ix1 p) (ix2 p (0 : Fin 1)) (by
      rw [Shape.rowMajor_val_two, Shape.rowMajor_val_one]
      show p.val * 1 + 0 = p.val
      omega)).trans ?_
    exact extractStridedSlice_apply ![0, 0] l _ (ix2 p (0 : Fin 1)) (ix2 p (0 : Fin 128)) (fun a => match a with
      | ⟨0, _⟩ => by show p.val = 0 + p.val; omega
      | ⟨1, _⟩ => by show 0 = 0 + 0; rfl)
  show sigm (shapeCast Cert.KernelIdeal.S16384
      (extractStridedSlice Cert.KernelIdeal.S16384x1 ![0, 0] l Cert.KernelIdeal.Facts₀.slices_S16384x128_S16384x1_0_0)
      Cert.KernelIdeal.Facts₀.shapeCasts_S16384x1_S16384 (ix1 p)) = _
  rw [e]

/-! ## The two sides -/

/-- The kernel's and the reference's row gathers are one operation on one pair of operands. -/
theorem pick_eq (h : Cert.KernelIdeal.KVal.C Cert.KernelIdeal.S100000x256 .bf16) (s : Cert.KernelIdeal.KVal.C Cert.KernelIdeal.S16384 .i32) :
    Cert.KernelIdeal.KVal.pick h s = refPick h s := rfl

/-- Column 0 of the kernel's padded predictor is the reference's output column. -/
theorem logits_col0 (h : Cert.KernelIdeal.KVal.C Cert.KernelIdeal.S100000x256 .bf16)
    (x3 x4 : Cert.KernelIdeal.KVal.C Cert.KernelIdeal.S16384 .i32) (x18 : Cert.KernelIdeal.KVal.C Cert.KernelIdeal.S256x1024 .f32)
    (x19 : Cert.KernelIdeal.KVal.C Cert.KernelIdeal.S256 .f32) (x20 : Cert.KernelIdeal.KVal.C Cert.KernelIdeal.S1x256 .f32)
    (x21 : Cert.KernelIdeal.KVal.C Cert.KernelIdeal.S1 .f32) (p : Fin 16384) :
    Cert.KernelIdeal.KVal.logits h x3 x4 x18 x19 x20 x21 (ix2 p (0 : Fin 128))
      = refLogit (refPick h x3) (refPick h x4) x18 x19 x20 x21 (ix2 p (0 : Fin 1)) := by
  rw [refLogit_apply]
  show Cert.Spec.linkK (Cert.KernelIdeal.KVal.pick h x3) (Cert.KernelIdeal.KVal.pick h x4) (Cert.KernelIdeal.KVal.w1T x18)
    (Cert.KernelIdeal.KVal.bR x19) (Cert.KernelIdeal.KVal.w2p x20) (Cert.KernelIdeal.KVal.b2p x21) p (0 : Fin 128) = _
  unfold Cert.Spec.linkK
  rw [Cert.LinkLemmas.b2p_00, pick_eq, pick_eq]
  congr 1
  refine Finset.sum_congr rfl fun j _ => ?_
  rw [Cert.LinkLemmas.w2p_col0, k_bR_apply]
  simp only [k_w1T_apply]

/-- THE LAST STRETCH: the kernel's result over the features `h` is the reference's. -/
theorem out_eq (h : Cert.KernelIdeal.KVal.C Cert.KernelIdeal.S100000x256 .bf16)
    (x3 x4 : Cert.KernelIdeal.KVal.C Cert.KernelIdeal.S16384 .i32) (x18 : Cert.KernelIdeal.KVal.C Cert.KernelIdeal.S256x1024 .f32)
    (x19 : Cert.KernelIdeal.KVal.C Cert.KernelIdeal.S256 .f32) (x20 : Cert.KernelIdeal.KVal.C Cert.KernelIdeal.S1x256 .f32)
    (x21 : Cert.KernelIdeal.KVal.C Cert.KernelIdeal.S1 .f32) :
    Cert.KernelIdeal.KVal.out h x3 x4 x18 x19 x20 x21 = refOut h x3 x4 x18 x19 x20 x21 := by
  funext i
  obtain ⟨p, rfl⟩ : ∃ p : Fin 16384, i = ix1 p := ⟨i 0, eq_ix1 i⟩
  show Cert.KernelIdeal.KVal.sig0 (Cert.KernelIdeal.KVal.logits h x3 x4 x18 x19 x20 x21) (ix1 p)
    = refSig (refLogit (refPick h x3) (refPick h x4) x18 x19 x20 x21) (ix1 p)
  rw [k_sig0_apply, refSig_apply, logits_col0]

/-! ## The reference's result is that function of its third layer's features -/

/-- The reference's last value is `refOut` of its third layer's value, the two being one composition of operations. -/
theorem refOut_v115 (x0 : CR S100000x128 .f32) (x1 : CR S2x500000 .i32) (x3 x4 : CR S16384 .i32) (x5 : CR S256x128 .f32)
    (x6 : CR S256 .f32) (x8 : CR S256x256 .f32) (x9 : CR S256 .f32) (x10 x13 : CR S256x256 .f32) (x14 : CR S256 .f32)
    (x15 : CR S256x256 .f32) (x18 : CR S256x1024 .f32) (x19 : CR S256 .f32) (x20 : CR S1x256 .f32) (x21 : CR S1 .f32) :
    Cert.ReferenceIdeal.Read.val_main_v115 (F := Ideal) x0 x1 x3 x4 x5 x6 x8 x9 x10 x13 x14 x15 x18 x19 x20 x21
      = refOut (Cert.ReferenceIdeal.Read.val_main_v79 (F := Ideal) x0 x1 x5 x6 x8 x9 x10 x13 x14 x15) x3 x4 x18 x19 x20 x21 := rfl

end Cert.Bridge

end
-- ==== Proof.Bridge.lean ====
/-
  The kernel program's result and the reference's are one function of the argument arrays.

  The node embedding agrees with the reference's as a whole array; given equal features, a layer of the kernel program
  agrees with the reference's layer, so the two layers agree one after the other; and given equal features of the last
  layer the predictor's results agree.
-/
import proofs.«431383_j21732534518206_2_alg».proof.Proof.BridgeLin
import proofs.«431383_j21732534518206_2_alg».proof.Proof.BridgeSage
import proofs.«431383_j21732534518206_2_alg».proof.Proof.BridgeLink

noncomputable section

namespace Cert.Bridge

open Idealize.ShloMosaic Cert.KernelIdeal.KVal

/-- The kernel program's result, as `KVal` states it over the argument arrays, is the reference's result term. -/
theorem result_eq (x0 : C Cert.KernelIdeal.S100000x128 .f32) (x1 : C Cert.KernelIdeal.S2x500000 .i32) (x3 x4 : C Cert.KernelIdeal.S16384 .i32)
    (x5 : C Cert.KernelIdeal.S256x128 .f32) (x6 : C Cert.KernelIdeal.S256 .f32) (x8 : C Cert.KernelIdeal.S256x256 .f32)
    (x9 : C Cert.KernelIdeal.S256 .f32) (x10 x13 : C Cert.KernelIdeal.S256x256 .f32) (x14 : C Cert.KernelIdeal.S256 .f32)
    (x15 : C Cert.KernelIdeal.S256x256 .f32) (x18 : C Cert.KernelIdeal.S256x1024 .f32) (x19 : C Cert.KernelIdeal.S256 .f32)
    (x20 : C Cert.KernelIdeal.S1x256 .f32) (x21 : C Cert.KernelIdeal.S1 .f32) :
    out (layer x1 (layer x1 (h0 x0 x5 x6) x8 x9 x10) x13 x14 x15) x3 x4 x18 x19 x20 x21
      = Cert.ReferenceIdeal.Read.val_main_v115 (F := Ideal) x0 x1 x3 x4 x5 x6 x8 x9 x10 x13 x14 x15 x18 x19 x20 x21 := by
  have e0 : h0 x0 x5 x6 = Cert.ReferenceIdeal.Read.val_main_v12 (F := Ideal) x0 x5 x6 := h0_eq x0 x5 x6
  have e1 : layer x1 (h0 x0 x5 x6) x8 x9 x10 = Cert.ReferenceIdeal.Read.val_main_v54 (F := Ideal) x0 x1 x5 x6 x8 x9 x10 :=
    (layer_eq x1 (h0 x0 x5 x6) x8 x9 x10).trans
      ((congrArg (fun h => refLayer x1 h x8 x9 x10) e0).trans (refLayer_v54 x0 x1 x5 x6 x8 x9 x10).symm)
  have e2 : layer x1 (layer x1 (h0 x0 x5 x6) x8 x9 x10) x13 x14 x15
      = Cert.ReferenceIdeal.Read.val_main_v79 (F := Ideal) x0 x1 x5 x6 x8 x9 x10 x13 x14 x15 :=
    (layer_eq x1 (layer x1 (h0 x0 x5 x6) x8 x9 x10) x13 x14 x15).trans
      ((congrArg (fun h => refLayer x1 h x13 x14 x15) e1).trans (refLayer_v79 x0 x1 x5 x6 x8 x9 x10 x13 x14 x15).symm)
  exact (out_eq (layer x1 (layer x1 (h0 x0 x5 x6) x8 x9 x10) x13 x14 x15) x3 x4 x18 x19 x20 x21).trans
    ((congrArg (fun h => refOut h x3 x4 x18 x19 x20 x21) e2).trans
      (refOut_v115 x0 x1 x3 x4 x5 x6 x8 x9 x10 x13 x14 x15 x18 x19 x20 x21).symm)

end Cert.Bridge

end
-- ==== Proof.lean ====
/-
  The certificate's five claims for the link predictor over two neighbourhood-aggregation layers.

  The two word-level and idealized frames are the generated ones; the reference's frame is its generated run with the
  result dropped; the idealization rewrote nothing, so `preserves` is `True`. The value claim: at the ideal instance the
  kernel program's result buffer ends at `KVal.out` of the argument arrays — the host stretches and the four calls read
  boundary by boundary (`KChain`), each call's result array by its closed formula (`Reg0 … Reg3`) — and the reference's at
  its generated term `val_main_v115` of the same arrays; the two are one function of the arguments (`Bridge.result_eq`):
  the embedding and both layers agree as whole arrays — the kernel's product with `1 / (deg + 1)` is the reference's
  quotient by `deg + 1` because a degree is a sum of ones and `deg + 1` is never zero, and the bias may be added before
  or after the second product —, the row gathers and the scatter-adds are the same operations on equal arrays, and the
  predictor's padded second layer has the reference's single column as its column 0.
-/
import proofs.«431383_j21732534518206_2_alg».proof.Defs
import proofs.«431383_j21732534518206_2_alg».proof.Proof.Gen.Kernel
import proofs.«431383_j21732534518206_2_alg».proof.Proof.Gen.Kernel.Skeleton
import proofs.«431383_j21732534518206_2_alg».proof.Proof.Gen.Kernel.Launch
import proofs.«431383_j21732534518206_2_alg».proof.Proof.Gen.Kernel.Points
import proofs.«431383_j21732534518206_2_alg».proof.Proof.Gen.Kernel.Frame
import proofs.«431383_j21732534518206_2_alg».proof.Proof.Gen.KernelIdeal
import proofs.«431383_j21732534518206_2_alg».proof.Proof.Gen.KernelIdeal.Skeleton
import proofs.«431383_j21732534518206_2_alg».proof.Proof.Gen.KernelIdeal.Launch
import proofs.«431383_j21732534518206_2_alg».proof.Proof.Gen.KernelIdeal.Points
import proofs.«431383_j21732534518206_2_alg».proof.Proof.Gen.KernelIdeal.Frame
import proofs.«431383_j21732534518206_2_alg».proof.Proof.Gen.ReferenceIdeal
import proofs.«431383_j21732534518206_2_alg».proof.Proof.Gen.ReferenceIdeal.Run
import proofs.«431383_j21732534518206_2_alg».proof.Proof.Gen.ReferenceIdeal.Read
import proofs.«431383_j21732534518206_2_alg».proof.Proof.Gen.Pre_finite_inputs
import proofs.«431383_j21732534518206_2_alg».proof.Proof.KRun
import proofs.«431383_j21732534518206_2_alg».proof.Proof.KChain
import proofs.«431383_j21732534518206_2_alg».proof.Proof.Reg0
import proofs.«431383_j21732534518206_2_alg».proof.Proof.Reg1
import proofs.«431383_j21732534518206_2_alg».proof.Proof.Reg2
import proofs.«431383_j21732534518206_2_alg».proof.Proof.Reg3
import proofs.«431383_j21732534518206_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result buffer ends at `KVal.out` of its arguments and the reference's at its
    generated term of arguments that agree with them: one function. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v87),
    Cert.KernelIdeal.Gen.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21⟩ := hagree c
  rw [Cert.ReferenceIdeal.Read.val_main_v115_eq, e0, e1, e3, e4, e5, e6, e8, e9, e10, e13, e14, e15, e18, e19, e20, e21]
  exact ((Cert.KernelIdeal.KChain.W9_v87 m ρ c Cert.KernelIdeal.Reg0.value Cert.KernelIdeal.Reg1.value Cert.KernelIdeal.Reg2.value
    Cert.KernelIdeal.Reg3.value).trans (Cert.Bridge.result_eq _ _ _ _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
